-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S16x4096 : Shape := ⟨2, ![16, 4096]⟩
abbrev S16x8192 : Shape := ⟨2, ![16, 8192]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S16x8192 : S_.BroadcastsInDim S16x8192 (![] : Fin 0 → Fin S16x8192.rank)
  reducesTo_S16x8192_S_d0_1 : S16x8192.ReducesTo [0, 1] S_

variable [Facts]

def fn_part1 {F : FTy → Type} [FloatOps F] (main_arg3 : IVec S16x8192 32) (main_v13 : IVec S_ 1) (main_v15 : FVec F S16x4096 .f32) (main_cst_5 : FVec F S_ .f32) : IVec S_ 1 :=
  let main_v16 : FVec F S16x4096 .f32 := broadcastInDim S16x4096 ![] bcast_S_S16x4096 main_cst_5
  let main_v17 : IVec S16x4096 1 := cmpf .ogt main_v15 main_v16
  let main_c_6 : IVec S_ 1 := constantI S_ 1 1#1
  let main_v18 : IVec S_ 1 := (fun x v => Host.reduce IntOp.andi x v reducesTo_S16x4096_S_d0_1 h_S_) main_v17 main_c_6
  let main_v19 : IVec S_ 1 := andi main_v13 main_v18
  let main_c_7 : IVec S_ 32 := constantI S_ 32 0#32
  let main_v20 : IVec S16x8192 32 := broadcastInDim S16x8192 ![] bcast_S_S16x8192 main_c_7
  let main_v21 : IVec S16x8192 1 := cmpi .sge main_arg3 main_v20
  let main_c_8 : IVec S_ 1 := constantI S_ 1 1#1
  let main_v22 : IVec S_ 1 := (fun x v => Host.reduce IntOp.andi x v reducesTo_S16x8192_S_d0_1 h_S_) main_v21 main_c_8
  let main_v23 : IVec S_ 1 := andi main_v19 main_v22
  let main_c_9 : IVec S_ 32 := constantI S_ 32 4096#32
  let main_v24 : IVec S16x8192 32 := broadcastInDim S16x8192 ![] bcast_S_S16x8192 main_c_9
  let main_v25 : IVec S16x8192 1 := cmpi .slt main_arg3 main_v24
  let main_c_10 : IVec S_ 1 := constantI S_ 1 1#1
  let main_v26 : IVec S_ 1 := (fun x v => Host.reduce IntOp.andi x v reducesTo_S16x8192_S_d0_1 h_S_) main_v25 main_c_10
  let main_v27 : IVec S_ 1 := andi main_v23 main_v26
  main_v27

def fn {F : FTy → Type} [FloatOps F] (main_arg0 : FVec F S1024x16 .f32) (main_arg1 : FVec F S16x4096 .f32) (main_arg2 : FVec F S16x4096 .f32) (main_arg3 : IVec S16x8192 32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_cst_4 : FVec F S_ .f32 := constant S_ .f32 0x3F000000#32
  let main_v14 : FVec F S16x4096 .f32 := broadcastInDim S16x4096 ![] bcast_S_S16x4096 main_cst_4
  let main_v15 : FVec F S16x4096 .f32 := addf main_arg2 main_v14
  let main_cst_5 : FVec F S_ .f32 := constant S_ .f32 0x00000000#32
  fn_part1 (F := F) main_arg3 main_v13 main_v15 main_cst_5
-- ==== Kernel.lean ====
abbrev S1024x16 : Shape := ⟨2, ![1024, 16]⟩
abbrev S16x4096 : Shape := ⟨2, ![16, 4096]⟩
abbrev S16x8192 : Shape := ⟨2, ![16, 8192]⟩
abbrev S_ : Shape := ⟨0, ![]⟩
abbrev S16x8192x1 : Shape := ⟨3, ![16, 8192, 1]⟩
abbrev S1 : Shape := ⟨1, ![1]⟩
abbrev S1x1x1 : Shape := ⟨3, ![1, 1, 1]⟩
abbrev S8192 : Shape := ⟨1, ![8192]⟩
abbrev S1x8192 : Shape := ⟨2, ![1, 8192]⟩
abbrev S1024x1 : Shape := ⟨2, ![1024, 1]⟩
abbrev S1024x33 : Shape := ⟨2, ![1024, 33]⟩
abbrev S33x8192 : Shape := ⟨2, ![33, 8192]⟩
abbrev S1024x8192 : Shape := ⟨2, ![1024, 8192]⟩
abbrev S33x2048 : Shape := ⟨2, ![33, 2048]⟩
abbrev S1024x2048 : Shape := ⟨2, ![1024, 2048]⟩

abbrev nBuf : Space → Nat
  | .hbm => 86
  | .vmem => 8
  | .smem => 0
  | _ => 0

abbrev bufTy : (tb : Table) → Fin (tcTables nBuf tb) → BufTy
  | .hbm, ⟨0, _⟩ => ⟨S1024x16, .f32⟩
  | .hbm, ⟨1, _⟩ => ⟨S16x4096, .f32⟩
  | .hbm, ⟨2, _⟩ => ⟨S16x4096, .f32⟩
  | .hbm, ⟨3, _⟩ => ⟨S16x8192, .i32⟩
  | .hbm, ⟨4, _⟩ => ⟨S_, .i32⟩
  | .hbm, ⟨5, _⟩ => ⟨S16x8192, .i32⟩
  | .hbm, ⟨6, _⟩ => ⟨S16x8192, .i1⟩
  | .hbm, ⟨7, _⟩ => ⟨S_, .i32⟩
  | .hbm, ⟨8, _⟩ => ⟨S16x8192, .i32⟩
  | .hbm, ⟨9, _⟩ => ⟨S16x8192, .i32⟩
  | .hbm, ⟨10, _⟩ => ⟨S16x8192, .i32⟩
  | .hbm, ⟨11, _⟩ => ⟨S16x8192x1, .i32⟩
  | .hbm, ⟨12, _⟩ => ⟨S1, .i32⟩
  | .hbm, ⟨13, _⟩ => ⟨S_, .i32⟩
  | .hbm, ⟨14, _⟩ => ⟨S16x8192x1, .i32⟩
  | .hbm, ⟨15, _⟩ => ⟨S16x8192x1, .i1⟩
  | .hbm, ⟨16, _⟩ => ⟨S1x1x1, .i32⟩
  | .hbm, ⟨17, _⟩ => ⟨S16x8192x1, .i32⟩
  | .hbm, ⟨18, _⟩ => ⟨S16x8192x1, .i1⟩
  | .hbm, ⟨19, _⟩ => ⟨S16x8192x1, .i1⟩
  | .hbm, ⟨20, _⟩ => ⟨S_, .i1⟩
  | .hbm, ⟨21, _⟩ => ⟨S16x8192, .i1⟩
  | .hbm, ⟨22, _⟩ => ⟨S16x8192, .f32⟩
  | .hbm, ⟨23, _⟩ => ⟨S_, .f32⟩
  | .hbm, ⟨24, _⟩ => ⟨S16x8192, .f32⟩
  | .hbm, ⟨25, _⟩ => ⟨S16x8192, .f32⟩
  | .hbm, ⟨26, _⟩ => ⟨S_, .i32⟩
  | .hbm, ⟨27, _⟩ => ⟨S16x8192, .i32⟩
  | .hbm, ⟨28, _⟩ => ⟨S16x8192, .i1⟩
  | .hbm, ⟨29, _⟩ => ⟨S_, .i32⟩
  | .hbm, ⟨30, _⟩ => ⟨S16x8192, .i32⟩
  | .hbm, ⟨31, _⟩ => ⟨S16x8192, .i32⟩
  | .hbm, ⟨32, _⟩ => ⟨S16x8192, .i32⟩
  | .hbm, ⟨33, _⟩ => ⟨S16x8192x1, .i32⟩
  | .hbm, ⟨34, _⟩ => ⟨S1, .i32⟩
  | .hbm, ⟨35, _⟩ => ⟨S_, .i32⟩
  | .hbm, ⟨36, _⟩ => ⟨S16x8192x1, .i32⟩
  | .hbm, ⟨37, _⟩ => ⟨S16x8192x1, .i1⟩
  | .hbm, ⟨38, _⟩ => ⟨S1x1x1, .i32⟩
  | .hbm, ⟨39, _⟩ => ⟨S16x8192x1, .i32⟩
  | .hbm, ⟨40, _⟩ => ⟨S16x8192x1, .i1⟩
  | .hbm, ⟨41, _⟩ => ⟨S16x8192x1, .i1⟩
  | .hbm, ⟨42, _⟩ => ⟨S_, .i1⟩
  | .hbm, ⟨43, _⟩ => ⟨S16x8192, .i1⟩
  | .hbm, ⟨44, _⟩ => ⟨S16x8192, .f32⟩
  | .hbm, ⟨45, _⟩ => ⟨S_, .f32⟩
  | .hbm, ⟨46, _⟩ => ⟨S16x8192, .f32⟩
  | .hbm, ⟨47, _⟩ => ⟨S16x8192, .f32⟩
  | .hbm, ⟨48, _⟩ => ⟨S_, .f32⟩
  | .hbm, ⟨49, _⟩ => ⟨S16x8192, .f32⟩
  | .hbm, ⟨50, _⟩ => ⟨S16x8192, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S16x8192, .f32⟩
  | .hbm, ⟨58, _⟩ => ⟨S16x8192, .f32⟩
  | .hbm, ⟨59, _⟩ => ⟨S_, .f32⟩
  | .hbm, ⟨60, _⟩ => ⟨S16x8192, .f32⟩
  | .hbm, ⟨61, _⟩ => ⟨S16x8192, .f32⟩
  | .hbm, ⟨62, _⟩ => ⟨S16x8192, .f32⟩
  | .hbm, ⟨63, _⟩ => ⟨S16x8192, .f32⟩
  | .hbm, ⟨64, _⟩ => ⟨S16x8192, .f32⟩
  | .hbm, ⟨65, _⟩ => ⟨S16x8192, .f32⟩
  | .hbm, ⟨66, _⟩ => ⟨S_, .f32⟩
  | .hbm, ⟨67, _⟩ => ⟨S16x8192, .f32⟩
  | .hbm, ⟨68, _⟩ => ⟨S16x8192, .f32⟩
  | .hbm, ⟨69, _⟩ => ⟨S_, .f32⟩
  | .hbm, ⟨70, _⟩ => ⟨S8192, .f32⟩
  | .hbm, ⟨71, _⟩ => ⟨S1x8192, .f32⟩
  | .hbm, ⟨72, _⟩ => ⟨S_, .f32⟩
  | .hbm, ⟨73, _⟩ => ⟨S1024x1, .f32⟩
  | .hbm, ⟨74, _⟩ => ⟨S1024x16, .f32⟩
  | .hbm, ⟨75, _⟩ => ⟨S1024x33, .f32⟩
  | .hbm, ⟨76, _⟩ => ⟨S33x8192, .f32⟩
  | .hbm, ⟨77, _⟩ => ⟨S1024x33, .bf16⟩
  | .hbm, ⟨78, _⟩ => ⟨S1024x33, .f32⟩
  | .hbm, ⟨79, _⟩ => ⟨S1024x33, .f32⟩
  | .hbm, ⟨80, _⟩ => ⟨S1024x33, .bf16⟩
  | .hbm, ⟨81, _⟩ => ⟨S33x8192, .bf16⟩
  | .hbm, ⟨82, _⟩ => ⟨S33x8192, .f32⟩
  | .hbm, ⟨83, _⟩ => ⟨S33x8192, .f32⟩
  | .hbm, ⟨84, _⟩ => ⟨S33x8192, .bf16⟩
  | .hbm, ⟨85, _⟩ => ⟨S1024x8192, .f32⟩
  | .local _ .vmem, ⟨0, _⟩ => ⟨S1024x33, .bf16⟩
  | .local _ .vmem, ⟨1, _⟩ => ⟨S1024x33, .bf16⟩
  | .local _ .vmem, ⟨2, _⟩ => ⟨S33x2048, .bf16⟩
  | .local _ .vmem, ⟨3, _⟩ => ⟨S33x2048, .bf16⟩
  | .local _ .vmem, ⟨4, _⟩ => ⟨S33x2048, .bf16⟩
  | .local _ .vmem, ⟨5, _⟩ => ⟨S33x2048, .bf16⟩
  | .local _ .vmem, ⟨6, _⟩ => ⟨S1024x2048, .f32⟩
  | .local _ .vmem, ⟨7, _⟩ => ⟨S1024x2048, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v1 : Ref sig .tc := ⟨.hbm, 47, rfl⟩
abbrev main_cst : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_cst_0 : Ref sig .tc := ⟨.hbm, 52, rfl⟩
abbrev main_v5 : Ref sig .tc := ⟨.hbm, 53, rfl⟩
abbrev main_v6 : Ref sig .tc := ⟨.hbm, 54, rfl⟩
abbrev main_cst_1 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst_2 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_3 : Ref sig .tc := ⟨.hbm, 66, rfl⟩
abbrev main_v16 : Ref sig .tc := ⟨.hbm, 67, rfl⟩
abbrev main_v17 : Ref sig .tc := ⟨.hbm, 68, rfl⟩
abbrev main_cst_4 : Ref sig .tc := ⟨.hbm, 69, rfl⟩
abbrev main_v18 : Ref sig .tc := ⟨.hbm, 70, rfl⟩
abbrev main_v19 : Ref sig .tc := ⟨.hbm, 71, rfl⟩
abbrev main_cst_5 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x33 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x33 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S33x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S33x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x8192 : S_.BroadcastsInDim S16x8192 (![] : Fin 0 → Fin S16x8192.rank)
  shapeCasts_S16x8192_S16x8192x1 : S16x8192.ShapeCasts S16x8192x1
  bcast_S_S16x8192x1 : S_.BroadcastsInDim S16x8192x1 (![] : Fin 0 → Fin S16x8192x1.rank)
  bcast_S1_S1x1x1_2 : S1.BroadcastsInDim S1x1x1 (![2] : Fin 1 → Fin S1x1x1.rank)
  bcast_S1x1x1_S16x8192x1_0_1_2 : S1x1x1.BroadcastsInDim S16x8192x1 (![0, 1, 2] : Fin 3 → Fin S16x8192x1.rank)
  reducesTo_S16x8192x1_S16x8192_d2 : S16x8192x1.ReducesTo [2] S16x8192
  h_S_ : 0 < S_.numel
  reducesTo_S16x8192_S8192_d0 : S16x8192.ReducesTo [0] S8192
  bcast_S8192_S1x8192_1 : S8192.BroadcastsInDim S1x8192 (![1] : Fin 1 → Fin S1x8192.rank)
  bcast_S_S1024x1 : S_.BroadcastsInDim S1024x1 (![] : Fin 0 → Fin S1024x1.rank)
  concatenates_S1024x16_S1024x16_S1024x1_S1024x33_d1 : Shape.Concatenates [S1024x16, S1024x16, S1024x1] S1024x33 1
  concatenates_S16x8192_S16x8192_S1x8192_S33x8192_d0 : Shape.Concatenates [S16x8192, S16x8192, S1x8192] S33x8192 0
  bitsLt_bf16_f32 : FTy.bits .bf16 < FTy.bits .f32
  inb_S1024x33_S1024x33_0_0 : ∀ a, (![0, 0] : Fin 2 → Nat) a + S1024x33.size a ≤ S1024x33.size a
  h_S1024x33 : 0 < S1024x33.numel
  shapeCasts_S1024x33_S1024x33 : S1024x33.ShapeCasts S1024x33
  inb_S33x2048_S33x2048_0_0 : ∀ a, (![0, 0] : Fin 2 → Nat) a + S33x2048.size a ≤ S33x2048.size a
  h_S33x2048 : 0 < S33x2048.numel
  shapeCasts_S33x2048_S33x2048 : S33x2048.ShapeCasts S33x2048
  inb_S1024x2048_S1024x2048_0_0 : ∀ a, (![0, 0] : Fin 2 → Nat) a + S1024x2048.size a ≤ S1024x2048.size a
  h_S1024x2048 : 0 < S1024x2048.numel
  gather_S16x4096_S16x8192x1_S16x8192_n_1_0_0_1_2_11_wf : GatherDims.WF S16x4096 S16x8192x1 S16x8192 [] [1] [0] [1] [0] 2 ![1, 1]
  dot_S1024x33_S33x2048_S1024x2048_1_0_0_1_n_n_wf : DotDims.WF S1024x33 S33x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x33.size a ≤ S1024x33.size a
  hwx0_0 : ∀ i : grid0.Coords, EltTy.bits .bf16 = 32 ∨ (Rect.block (s := S1024x33) S1024x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x33.size a ≤ S1024x33.size a
  hwx0_1 : ∀ i : grid0.Coords, EltTy.bits .bf16 = 32 ∨ (Rect.block (s := S1024x33) S1024x33.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S33x2048.size a ≤ S33x8192.size a
  hwx0_2 : ∀ i : grid0.Coords, EltTy.bits .bf16 = 32 ∨ (Rect.block (s := S33x8192) S33x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S33x2048.size a ≤ S33x8192.size a
  hwx0_3 : ∀ i : grid0.Coords, EltTy.bits .bf16 = 32 ∨ (Rect.block (s := S33x8192) S33x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x8192.size a
  hwx0_4 : ∀ i : grid0.Coords, EltTy.bits .f32 = 32 ∨ (Rect.block (s := S1024x8192) S1024x2048.size (cc0_transform_4 i) (hinb0_4 i)).WholeWords (EltTy.packing .f32)

variable [Facts₀]

def gather_S16x4096_S16x8192x1_S16x8192_n_1_0_0_1_2_11 : GatherDims S16x4096 S16x8192x1 S16x8192 where
  offsetDims := []
  collapsedSliceDims := [1]
  operandBatchingDims := [0]
  startIndicesBatchingDims := [0]
  startIndexMap := [1]
  indexVectorDim := 2
  sliceSizes := ![1, 1]
  wf := gather_S16x4096_S16x8192x1_S16x8192_n_1_0_0_1_2_11_wf
def dot_S1024x33_S33x2048_S1024x2048_1_0_0_1_n_n : DotDims S1024x33 S33x2048 S1024x2048 where
  lhsContracting := [1]
  rhsContracting := [0]
  lhsNonContracting := [0]
  rhsNonContracting := [1]
  lhsBatch := []
  rhsBatch := []
  wf := dot_S1024x33_S33x2048_S1024x2048_1_0_0_1_n_n_wf

abbrev win0_0 : Pipeline.Window sig grid0 :=
  Pipeline.Window.ofSpec (Memref.whole main_v24) S1024x33.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x33.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S33x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S33x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x16 : Shape := ⟨2, ![1024, 16]⟩
abbrev S16x4096 : Shape := ⟨2, ![16, 4096]⟩
abbrev S16x8192 : Shape := ⟨2, ![16, 8192]⟩
abbrev S_ : Shape := ⟨0, ![]⟩
abbrev S1024x16x1 : Shape := ⟨3, ![1024, 16, 1]⟩
abbrev S1x16x4096 : Shape := ⟨3, ![1, 16, 4096]⟩
abbrev S1024x16x4096 : Shape := ⟨3, ![1024, 16, 4096]⟩
abbrev S16 : Shape := ⟨1, ![16]⟩
abbrev S16x1 : Shape := ⟨2, ![16, 1]⟩
abbrev S16x8192x1 : Shape := ⟨3, ![16, 8192, 1]⟩
abbrev S16x8192x2 : Shape := ⟨3, ![16, 8192, 2]⟩
abbrev S1024x16x8192 : Shape := ⟨3, ![1024, 16, 8192]⟩
abbrev S1024x8192 : Shape := ⟨2, ![1024, 8192]⟩

abbrev nBuf : Space → Nat
  | .hbm => 51
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S16x4096, .f32⟩
  | .hbm, ⟨2, _⟩ => ⟨S16x4096, .f32⟩
  | .hbm, ⟨3, _⟩ => ⟨S16x8192, .i32⟩
  | .hbm, ⟨4, _⟩ => ⟨S_, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S1024x16x1, .f32⟩
  | .hbm, ⟨9, _⟩ => ⟨S1x16x4096, .f32⟩
  | .hbm, ⟨10, _⟩ => ⟨S1024x16x4096, .f32⟩
  | .hbm, ⟨11, _⟩ => ⟨S1024x16x4096, .f32⟩
  | .hbm, ⟨12, _⟩ => ⟨S1024x16x4096, .f32⟩
  | .hbm, ⟨13, _⟩ => ⟨S1x16x4096, .f32⟩
  | .hbm, ⟨14, _⟩ => ⟨S1024x16x4096, .f32⟩
  | .hbm, ⟨15, _⟩ => ⟨S1024x16x4096, .f32⟩
  | .hbm, ⟨16, _⟩ => ⟨S_, .f32⟩
  | .hbm, ⟨17, _⟩ => ⟨S1024x16x4096, .f32⟩
  | .hbm, ⟨18, _⟩ => ⟨S1024x16x4096, .f32⟩
  | .hbm, ⟨19, _⟩ => ⟨S1024x16x4096, .f32⟩
  | .hbm, ⟨20, _⟩ => ⟨S16x4096, .f32⟩
  | .hbm, ⟨21, _⟩ => ⟨S1x16x4096, .f32⟩
  | .hbm, ⟨22, _⟩ => ⟨S1024x16x4096, .f32⟩
  | .hbm, ⟨23, _⟩ => ⟨S1024x16x4096, .f32⟩
  | .hbm, ⟨24, _⟩ => ⟨S_, .f32⟩
  | .hbm, ⟨25, _⟩ => ⟨S_, .f32⟩
  | .hbm, ⟨26, _⟩ => ⟨S1024x16x4096, .f32⟩
  | .hbm, ⟨27, _⟩ => ⟨S1024x16x4096, .f32⟩
  | .hbm, ⟨28, _⟩ => ⟨S16, .i32⟩
  | .hbm, ⟨29, _⟩ => ⟨S16x1, .i32⟩
  | .hbm, ⟨30, _⟩ => ⟨S_, .i32⟩
  | .hbm, ⟨31, _⟩ => ⟨S16x1, .i32⟩
  | .hbm, ⟨32, _⟩ => ⟨S16x1, .i1⟩
  | .hbm, ⟨33, _⟩ => ⟨S_, .i32⟩
  | .hbm, ⟨34, _⟩ => ⟨S16x1, .i32⟩
  | .hbm, ⟨35, _⟩ => ⟨S16x1, .i32⟩
  | .hbm, ⟨36, _⟩ => ⟨S16x1, .i32⟩
  | .hbm, ⟨37, _⟩ => ⟨S_, .i32⟩
  | .hbm, ⟨38, _⟩ => ⟨S16x8192, .i32⟩
  | .hbm, ⟨39, _⟩ => ⟨S16x8192, .i1⟩
  | .hbm, ⟨40, _⟩ => ⟨S_, .i32⟩
  | .hbm, ⟨41, _⟩ => ⟨S16x8192, .i32⟩
  | .hbm, ⟨42, _⟩ => ⟨S16x8192, .i32⟩
  | .hbm, ⟨43, _⟩ => ⟨S16x8192, .i32⟩
  | .hbm, ⟨44, _⟩ => ⟨S16x8192, .i32⟩
  | .hbm, ⟨45, _⟩ => ⟨S16x8192x1, .i32⟩
  | .hbm, ⟨46, _⟩ => ⟨S16x8192x1, .i32⟩
  | .hbm, ⟨47, _⟩ => ⟨S16x8192x2, .i32⟩
  | .hbm, ⟨48, _⟩ => ⟨S1024x16x8192, .f32⟩
  | .hbm, ⟨49, _⟩ => ⟨S_, .f32⟩
  | .hbm, ⟨50, _⟩ => ⟨S1024x8192, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S1024x16_S1024x16x1_0_1 : S1024x16.BroadcastsInDim S1024x16x1 (![0, 1] : Fin 2 → Fin S1024x16x1.rank)
  bcast_S16x4096_S1x16x4096_1_2 : S16x4096.BroadcastsInDim S1x16x4096 (![1, 2] : Fin 2 → Fin S1x16x4096.rank)
  bcast_S1024x16x1_S1024x16x4096_0_1_2 : S1024x16x1.BroadcastsInDim S1024x16x4096 (![0, 1, 2] : Fin 3 → Fin S1024x16x4096.rank)
  bcast_S1x16x4096_S1024x16x4096_0_1_2 : S1x16x4096.BroadcastsInDim S1024x16x4096 (![0, 1, 2] : Fin 3 → Fin S1024x16x4096.rank)
  bcast_S_S1024x16x4096 : S_.BroadcastsInDim S1024x16x4096 (![] : Fin 0 → Fin S1024x16x4096.rank)
  bcast_S16_S16x1_0 : S16.BroadcastsInDim S16x1 (![0] : Fin 1 → Fin S16x1.rank)
  bcast_S_S16x1 : S_.BroadcastsInDim S16x1 (![] : Fin 0 → Fin S16x1.rank)
  bcast_S_S16x8192 : S_.BroadcastsInDim S16x8192 (![] : Fin 0 → Fin S16x8192.rank)
  bcast_S16x1_S16x8192_0_1 : S16x1.BroadcastsInDim S16x8192 (![0, 1] : Fin 2 → Fin S16x8192.rank)
  bcast_S16x8192_S16x8192x1_0_1 : S16x8192.BroadcastsInDim S16x8192x1 (![0, 1] : Fin 2 → Fin S16x8192x1.rank)
  concatenates_S16x8192x1_S16x8192x1_S16x8192x2_d2 : Shape.Concatenates [S16x8192x1, S16x8192x1] S16x8192x2 2
  reducesTo_S1024x16x8192_S1024x8192_d1 : S1024x16x8192.ReducesTo [1] S1024x8192
  h_S_ : 0 < S_.numel
  gather_S1024x16x4096_S16x8192x2_S1024x16x8192_0_12_n_n_12_2_102411_wf : GatherDims.WF S1024x16x4096 S16x8192x2 S1024x16x8192 [0] [1, 2] [] [1, 2] [] 2 ![1024, 1, 1]

variable [Facts₀]

def gather_S1024x16x4096_S16x8192x2_S1024x16x8192_0_12_n_n_12_2_102411 : GatherDims S1024x16x4096 S16x8192x2 S1024x16x8192 where
  offsetDims := [0]
  collapsedSliceDims := [1, 2]
  operandBatchingDims := []
  startIndicesBatchingDims := []
  startIndexMap := [1, 2]
  indexVectorDim := 2
  sliceSizes := ![1024, 1, 1]
  wf := gather_S1024x16x4096_S16x8192x2_S1024x16x8192_0_12_n_n_12_2_102411_wf

class Facts : Prop extends Facts₀ where

variable [Facts]
-- ==== Proof.RunKernel.lean ====
/-
  The run of the program `Kernel`: its @main is three stretches of host operations (the two gathers of the
  parameter tables along the edges, then the coefficients, the two operands and their remainders) and one pipelined
  region of four grid points.  At every point the body loads the four input blocks, forms three matrix products into
  zero accumulators, adds them and stores the sum over the whole output block; so the output's staging buffer after
  the body is one piece, the payload of the four input blocks.  From that: the proof data of the pipeline, the body's
  triple, the run to the pipeline's post (every array at what the written-back blocks make it, every other buffer as the
  region found it) and the frame: the four argument arrays end as they began.  Stated for any float instance.
-/
import proofs.«412988_j55697135894671_3_alg».proof.Proof.Gen.Kernel.Launch
import proofs.«412988_j55697135894671_3_alg».proof.Proof.Gen.Kernel.Skeleton
import proofs.«412988_j55697135894671_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body -/

/-- The whole [1024, 33], [33, 2048] and [1024, 2048] blocks, as the body's loads and its store name them. -/
abbrev rL : Rect S1024x33 := Rect.unit (s := S1024x33) ![0, 0] S1024x33.size Facts₀.inb_S1024x33_S1024x33_0_0
abbrev rC : Rect S33x2048 := Rect.unit (s := S33x2048) ![0, 0] S33x2048.size Facts₀.inb_S33x2048_S33x2048_0_0
abbrev rO : Rect S1024x2048 := Rect.unit (s := S1024x2048) ![0, 0] S1024x2048.size Facts₀.inb_S1024x2048_S1024x2048_0_0

/-- The output's staging buffer after the body, from the four input blocks: its one store, over the whole block. -/
def out0_4 (x0 x1 : Vec F S1024x33 .bf16) (x2 x3 : Vec F S33x2048 .bf16) : Vec F S1024x2048 .f32 :=
  View.canon [⟨rO, k0_pay1 (View.ld x0 rL) (View.ld x1 rL) (View.ld x2 rC) (View.ld x3 rC)⟩]

/-- The store covers the buffer. -/
theorem cover0_4 (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

set_option maxHeartbeats 1000000 in
/-- The body on whole staging memrefs, the inputs' at contents `x0 … x3` and the output's at anything: it runs to the end
    leaving the inputs as they were and the output's at `out0_4` of them. -/
theorem sound_kernel (c : Dev nD) (E : Set ℕ) (i : grid0.Coords)
    (arg1 : Memref sig .tc .vmem S1024x33 .bf16) (harg1 : arg1.IsWhole) (arg2 : Memref sig .tc .vmem S1024x33 .bf16) (harg2 : arg2.IsWhole)
    (arg3 : Memref sig .tc .vmem S33x2048 .bf16) (harg3 : arg3.IsWhole) (arg4 : Memref sig .tc .vmem S33x2048 .bf16) (harg4 : arg4.IsWhole)
    (arg5 : Memref sig .tc .vmem S1024x2048 .f32) (harg5 : arg5.IsWhole)
    (x0 x1 : Vec F S1024x33 .bf16) (x2 x3 : Vec F S33x2048 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__mix_kernel i arg1 harg1 arg2 harg2 arg3 harg3 arg4 harg4 arg5 harg5) K := by
  simp only [cc0__mix_kernel_eq_skeleton]; unfold cc0__mix_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the four blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state every array of the pipeline is what
    the written-back blocks make it and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Run

end
-- ==== Proof.RunKernelIdeal.lean ====
/-
  The run of the program `KernelIdeal`: its @main is three stretches of host operations (the two gathers of the
  parameter tables along the edges, then the coefficients, the two operands and their remainders) and one pipelined
  region of four grid points.  At every point the body loads the four input blocks, forms three matrix products into
  zero accumulators, adds them and stores the sum over the whole output block; so the output's staging buffer after
  the body is one piece, the payload of the four input blocks.  From that: the proof data of the pipeline, the body's
  triple, the run to the pipeline's post (every array at what the written-back blocks make it, every other buffer as the
  region found it) and the frame: the four argument arrays end as they began.  Stated for any float instance.
-/
import proofs.«412988_j55697135894671_3_alg».proof.Proof.Gen.KernelIdeal.Launch
import proofs.«412988_j55697135894671_3_alg».proof.Proof.Gen.KernelIdeal.Skeleton
import proofs.«412988_j55697135894671_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body -/

/-- The whole [1024, 33], [33, 2048] and [1024, 2048] blocks, as the body's loads and its store name them. -/
abbrev rL : Rect S1024x33 := Rect.unit (s := S1024x33) ![0, 0] S1024x33.size Facts₀.inb_S1024x33_S1024x33_0_0
abbrev rC : Rect S33x2048 := Rect.unit (s := S33x2048) ![0, 0] S33x2048.size Facts₀.inb_S33x2048_S33x2048_0_0
abbrev rO : Rect S1024x2048 := Rect.unit (s := S1024x2048) ![0, 0] S1024x2048.size Facts₀.inb_S1024x2048_S1024x2048_0_0

/-- The output's staging buffer after the body, from the four input blocks: its one store, over the whole block. -/
def out0_4 (x0 x1 : Vec F S1024x33 .bf16) (x2 x3 : Vec F S33x2048 .bf16) : Vec F S1024x2048 .f32 :=
  View.canon [⟨rO, k0_pay1 (View.ld x0 rL) (View.ld x1 rL) (View.ld x2 rC) (View.ld x3 rC)⟩]

/-- The store covers the buffer. -/
theorem cover0_4 (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

set_option maxHeartbeats 1000000 in
/-- The body on whole staging memrefs, the inputs' at contents `x0 … x3` and the output's at anything: it runs to the end
    leaving the inputs as they were and the output's at `out0_4` of them. -/
theorem sound_kernel (c : Dev nD) (E : Set ℕ) (i : grid0.Coords)
    (arg1 : Memref sig .tc .vmem S1024x33 .bf16) (harg1 : arg1.IsWhole) (arg2 : Memref sig .tc .vmem S1024x33 .bf16) (harg2 : arg2.IsWhole)
    (arg3 : Memref sig .tc .vmem S33x2048 .bf16) (harg3 : arg3.IsWhole) (arg4 : Memref sig .tc .vmem S33x2048 .bf16) (harg4 : arg4.IsWhole)
    (arg5 : Memref sig .tc .vmem S1024x2048 .f32) (harg5 : arg5.IsWhole)
    (x0 x1 : Vec F S1024x33 .bf16) (x2 x3 : Vec F S33x2048 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__mix_kernel i arg1 harg1 arg2 harg2 arg3 harg3 arg4 harg4 arg5 harg5) K := by
  simp only [cc0__mix_kernel_eq_skeleton]; unfold cc0__mix_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the four blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state every array of the pipeline is what
    the written-back blocks make it and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Run

end
-- ==== Proof.LibDotCols.lean ====
/-
  A product of two matrices that contracts the left operand's LAST axis with the right operand's FIRST, read at an entry.

  For a left operand of shape [R, K], a right operand of shape [K, N] and dimension numbers
  "contract axis 1 with axis 0, free axes 0 and 1, no batch axes", the contraction shape has the one axis of extent
  K, the left operand is read at (p, k) and the right at (k, n); so over the extended reals the product accumulated
  into an accumulator `acc` is, at (p, n), `acc (p, n) + ∑ k, l (p, k) * r (k, n)`: row p of the left operand against
  column n of the right.  Stated for ANY such record of dimension numbers, whatever its name, from the six equations
  that say which lists it holds (each `rfl` for a printed record).
-/
import Idealize.ShloMosaic.PureOps.Ideal.Laws
import Idealize.ShloMosaic.Lib.ValueIdx

noncomputable section

namespace Cert.LibDotCols

open Idealize.ShloMosaic Idealize.ShloMosaic.ValueIdx

variable {R K N : Nat} (D : DotDims ⟨2, ![R, K]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the contraction coordinate. -/
theorem rhs_row (hlc : D.lhsContracting = [1]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [0]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus row p of the left operand against column n
    of the right. -/
theorem matmul_cols {φ₁ φ₂ : FTy} (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![R, K]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 p k) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotCols

end
-- ==== Proof.Spec.lean ====
/-
  The mathematics of the certificate, stated once over plain extended reals and with no program in sight.

  Product node `n` of a circuit has one Gaussian child per layer `c` (sixteen layers): the child is column
  `edges[c, n]` of the parameter tables, its mean `l` and its scale `s = scales + 1/2`.  The reference sums, over the
  layers, the log-density  -1/2 ((x - l)/s)^2 - log s - 1/2 log 2π  of the batch row's entry `x[b, c]`.
  The kernel expands the square: with  q = 1/(s·s)  the summand is  x²·(-q/2) + x·(l·q) + (-l²q/2 - log s - 1/2 log 2π),
  so the whole sum is one row [x² | x | 1] of 33 numbers against one column [-q/2 | l·q | Σ constants]; it then
  splits both operands into a leading part and a remainder (the remainder of a real number against itself is 0)
  and adds three of the four cross products.
-/
import Idealize.ShloMosaic.PureOps.Ideal
import Idealize.ShloMosaic.Lib.ValueIdx

noncomputable section

open scoped BigOperators

namespace Cert.Mix

open Idealize.ShloMosaic Idealize.ShloMosaic.ValueIdx

/-- The batch [1024, 16], a parameter table [16, 4096], the edge table [16, 8192], the result [1024, 8192]. -/
abbrev SX : Shape := ⟨2, ![1024, 16]⟩
abbrev SP : Shape := ⟨2, ![16, 4096]⟩
abbrev SE : Shape := ⟨2, ![16, 8192]⟩
abbrev SO : Shape := ⟨2, ![1024, 8192]⟩
abbrev SL : Shape := ⟨2, ![1024, 33]⟩
abbrev SC : Shape := ⟨2, ![33, 8192]⟩

/-- The programs' float literals, each the exact binary value of its word. -/
def wHalf : EReal := Ideal.ofBits .f32 0x3F000000#32
def wNegHalf : EReal := Ideal.ofBits .f32 0xBF000000#32
def wOne : EReal := Ideal.ofBits .f32 0x3F800000#32
def wZero : EReal := Ideal.ofBits .f32 0x00000000#32
/-- The reference's `log 2π` as a float … -/
def wLog2pi : EReal := Ideal.ofBits .f32 0x3FEB3F8E#32
/-- … and the kernel's `1/2 log 2π`: the same word one binade down, so exactly half of it. -/
def wHalfLog2pi : EReal := Ideal.ofBits .f32 0x3F6B3F8E#32

variable (x : SX.Idx → EReal) (locs scales : SP.Idx → EReal) (edges : SE.Idx → BitVec 32)

/-- The child of product node `n` in layer `c`: a column of the parameter tables (reduced into range; an edge word
    that is in range is its own residue). -/
def node (c : Fin 16) (n : Fin 8192) : Fin 4096 := ⟨(edges (ix2 c n)).toNat % 4096, Nat.mod_lt _ (by decide)⟩

/-- That child's mean … -/
def locAt (c : Fin 16) (n : Fin 8192) : EReal := locs (ix2 c (node edges c n))
/-- … and its scale, `scales + 1/2`. -/
def sAt (c : Fin 16) (n : Fin 8192) : EReal := scales (ix2 c (node edges c n)) + wHalf

/-! ## The reference -/

/-- One child's Gaussian log-density at `xv`, as the reference computes it. -/
def llTerm (xv l s : EReal) : EReal :=
  ((wNegHalf * Ideal.div (xv - l) s) * Ideal.div (xv - l) s - Ideal.log s) - wHalf * wLog2pi

/-- The reference's result at (b, n): the children's log-densities summed over the layers, from zero. -/
def refOut (b : Fin 1024) (n : Fin 8192) : EReal :=
  wZero + ∑ c : Fin 16, llTerm (x (ix2 b c)) (locAt locs edges c n) (sAt scales edges c n)

/-! ## The kernel -/

/-- `1/(s·s)`. -/
def invSq (s : EReal) : EReal := Ideal.div wOne (s * s)
/-- The coefficient of x², of x, and the constant of one child's log-density expanded in x. -/
def quadCoef (s : EReal) : EReal := wNegHalf * invSq s
def linCoef (l s : EReal) : EReal := l * invSq s
def constCoef (l s : EReal) : EReal := (((wNegHalf * l) * l) * invSq s - Ideal.log s) - wHalfLog2pi

/-- The constants of node `n`'s children summed over the layers, from zero. -/
def biasAt (n : Fin 8192) : EReal :=
  wZero + ∑ c : Fin 16, constCoef (locAt locs edges c n) (sAt scales edges c n)

/-- Row `b` of the left operand: the squares, the entries, a one. -/
def lhsAt (b : Fin 1024) (k : Fin 33) : EReal :=
  if h : k.val < 16 then x (ix2 b ⟨k.val, h⟩) * x (ix2 b ⟨k.val, h⟩)
  else if h2 : k.val < 32 then x (ix2 b ⟨k.val - 16, by omega⟩)
  else wOne

/-- Column `n` of the right operand: the quadratic coefficients, the linear ones, the summed constants. -/
def coAt (k : Fin 33) (n : Fin 8192) : EReal :=
  if h : k.val < 16 then quadCoef (sAt scales edges ⟨k.val, h⟩ n)
  else if h2 : k.val < 32 then
    linCoef (locAt locs edges ⟨k.val - 16, by omega⟩ n) (sAt scales edges ⟨k.val - 16, by omega⟩ n)
  else biasAt locs scales edges n

/-- The kernel's result at (b, n): leading·leading + leading·remainder + remainder·leading, each product a sum
    over the 33 positions from zero, a remainder being an entry minus itself. -/
def kerOut (b : Fin 1024) (n : Fin 8192) : EReal :=
  ((wZero + ∑ k : Fin 33, lhsAt x b k * coAt locs scales edges k n)
    + (wZero + ∑ k : Fin 33, lhsAt x b k * (coAt locs scales edges k n - coAt locs scales edges k n)))
  + (wZero + ∑ k : Fin 33, (lhsAt x b k - lhsAt x b k) * coAt locs scales edges k n)

end Cert.Mix

end
-- ==== Proof.KernelValue.lean ====
/-
  What the idealized kernel's result array holds after the run, as ONE function of the four operand arrays the region
  finds (the leading and remainder parts of the [x² | x | 1] rows and of the coefficient columns).

  At grid point `t` the body forms, for every (p, q) of its [1024, 2048] block, three sums over the 33 positions —
  leading·leading, leading·remainder, remainder·leading — each from a zero accumulator, and stores their sum.  The left
  operands' blocks are the whole arrays; the right operands' and the output's blocks are columns 2048·t … 2048·t + 2047.
  So point `t` writes block `t` of the array `Gout` below, the four blocks tile the result, and the result array ends
  at `Gout`.
-/
import proofs.«412988_j55697135894671_3_alg».proof.Proof.RunKernelIdeal
import proofs.«412988_j55697135894671_3_alg».proof.Proof.LibDotCols
import proofs.«412988_j55697135894671_3_alg».proof.Proof.Spec
import Idealize.ShloMosaic.Lib.Pipeline.Value

set_option maxRecDepth 16384

noncomputable section

open scoped BigOperators

namespace Cert.KernelIdeal.Val

open Cert.KernelIdeal Cert.KernelIdeal.Gen Cert.KernelIdeal.Run Cert.Mix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three cross products summed, at row `p` of the left operands and column `q` of the right ones. -/
def cross (a0 a1 : Fin 33 → EReal) (b0 b1 : Fin 33 → EReal) : EReal :=
  ((wZero + ∑ k : Fin 33, a0 k * b0 k) + (wZero + ∑ k : Fin 33, a0 k * b1 k)) + (wZero + ∑ k : Fin 33, a1 k * b0 k)

/-- The result array as a function of the four operand arrays. -/
def Gout (A0 A1 : S1024x33.Idx → EReal) (A2 A3 : S33x8192.Idx → EReal) : S1024x8192.Idx → EReal := fun i =>
  cross (fun k => A0 (ix2 ⟨(i 0).val, (i 0).isLt⟩ k)) (fun k => A1 (ix2 ⟨(i 0).val, (i 0).isLt⟩ k))
    (fun k => A2 (ix2 k ⟨(i 1).val, (i 1).isLt⟩)) (fun k => A3 (ix2 k ⟨(i 1).val, (i 1).isLt⟩))

/-- The body's stored value at (p, q) of its block. -/
theorem pay_apply (x0 x1 : Vec Ideal S1024x33 .bf16) (x2 x3 : Vec Ideal S33x2048 .bf16) (p : Fin 1024) (q : Fin 2048) :
    k0_pay1 x0 x1 x2 x3 (ix2 p q)
      = cross (fun k => x0 (ix2 p k)) (fun k => x1 (ix2 p k)) (fun k => x2 (ix2 k q)) (fun k => x3 (ix2 k q)) := by
  unfold k0_pay1 cross
  dsimp only [matmul]
  rw [addf_apply, addf_apply,
    Cert.LibDotCols.matmul_cols dot_S1024x33_S33x2048_S1024x2048_1_0_0_1_n_n none rfl rfl rfl rfl rfl rfl,
    Cert.LibDotCols.matmul_cols dot_S1024x33_S33x2048_S1024x2048_1_0_0_1_n_n none rfl rfl rfl rfl rfl rfl,
    Cert.LibDotCols.matmul_cols dot_S1024x33_S33x2048_S1024x2048_1_0_0_1_n_n none rfl rfl rfl rfl rfl rfl]
  simp only [shapeCast_self]
  rfl

/-- The cross sum depends on its four families entry by entry. -/
theorem cross_congr {a0 a1 b0 b1 a0' a1' b0' b1' : Fin 33 → EReal} (h0 : ∀ k, a0 k = a0' k) (h1 : ∀ k, a1 k = a1' k)
    (h2 : ∀ k, b0 k = b0' k) (h3 : ∀ k, b1 k = b1' k) : cross a0 a1 b0 b1 = cross a0' a1' b0' b1' := by
  rw [funext h0, funext h1, funext h2, funext h3]

/-! ## From blocks to the array -/

theorem hz : (![0, 0] : Fin 2 → Nat) = fun _ => 0 := funext fun a => by fin_cases a <;> rfl

/-- The printed index maps over the four grid points: the left operands' blocks stay at (0, 0); the right operands'
    and the output's move together along the columns. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

set_option maxHeartbeats 1000000 in
/-- What point `t` writes back is block `t` of `Gout` of the four operand arrays as the region finds them. -/
theorem flushed4_eq (c : Dev nD) (t : Fin cfg0.N) :
    (dats m 0 c).flushed 4 t = ((cfg0.win 4).blk t).view.read (Elt Ideal)
      (Gout (V m c main_v24) (V m c main_v27) (V m c main_v28) (V m c main_v31)) := by
  show (cfg0.win 4).cut (grid0.coords t) ((dats m 0 c).after 4 t) = _
  rw [after0_4]
  unfold out0_4
  rw [View.canon_unit_zero hz]
  simp only [View.ld_unit_zero (S := S1024x33) hz, View.ld_unit_zero (S := S33x2048) hz]
  obtain ⟨a00, a01, a10, a11, a20, a21, a30, a31, a40, a41⟩ := idx_facts t
  have ht : t.val < 4 := (show t.val < grid0.N from t.isLt).trans_eq N_0
  funext j
  obtain ⟨p, q, rfl⟩ : ∃ (p : Fin 1024) (q : Fin 2048), j = ix2 p q := ⟨j 0, j 1, eq_ix2 j⟩
  have hp : p.val < 1024 := p.isLt
  have hq : q.val < 2048 := q.isLt
  refine (pay_apply (iblk m c 0 t) (iblk m c 1 t) (iblk m c 2 t) (iblk m c 3 t) p q).trans ?_
  have hemb4 : ((cfg0.win 4).blk t).view.emb (ix2 p q) = (ix2 p (⟨t.val * 2048 + q.val, by omega⟩ : Fin 8192) : S1024x8192.Idx) := by
    funext a; apply Fin.ext
    match a with
    | ⟨0, _⟩ => show win0_4.index t (0 : Fin 2) * 1024 + 1 * p.val = p.val; omega
    | ⟨1, _⟩ => show win0_4.index t (1 : Fin 2) * 2048 + 1 * q.val = t.val * 2048 + q.val; omega
  have hemb0 : ∀ k : Fin 33, ((cfg0.win 0).blk t).view.emb (ix2 p k) = (ix2 p k : S1024x33.Idx) := fun k => by
    funext a; apply Fin.ext
    match a with
    | ⟨0, _⟩ => show win0_0.index t (0 : Fin 2) * 1024 + 1 * p.val = p.val; omega
    | ⟨1, _⟩ => show win0_0.index t (1 : Fin 2) * 33 + 1 * k.val = k.val; omega
  have hemb1 : ∀ k : Fin 33, ((cfg0.win 1).blk t).view.emb (ix2 p k) = (ix2 p k : S1024x33.Idx) := fun k => by
    funext a; apply Fin.ext
    match a with
    | ⟨0, _⟩ => show win0_1.index t (0 : Fin 2) * 1024 + 1 * p.val = p.val; omega
    | ⟨1, _⟩ => show win0_1.index t (1 : Fin 2) * 33 + 1 * k.val = k.val; omega
  have hemb2 : ∀ k : Fin 33, ((cfg0.win 2).blk t).view.emb (ix2 k q) = (ix2 k (⟨t.val * 2048 + q.val, by omega⟩ : Fin 8192) : S33x8192.Idx) := fun k => by
    funext a; apply Fin.ext
    match a with
    | ⟨0, _⟩ => show win0_2.index t (0 : Fin 2) * 33 + 1 * k.val = k.val; omega
    | ⟨1, _⟩ => show win0_2.index t (1 : Fin 2) * 2048 + 1 * q.val = t.val * 2048 + q.val; omega
  have hemb3 : ∀ k : Fin 33, ((cfg0.win 3).blk t).view.emb (ix2 k q) = (ix2 k (⟨t.val * 2048 + q.val, by omega⟩ : Fin 8192) : S33x8192.Idx) := fun k => by
    funext a; apply Fin.ext
    match a with
    | ⟨0, _⟩ => show win0_3.index t (0 : Fin 2) * 33 + 1 * k.val = k.val; omega
    | ⟨1, _⟩ => show win0_3.index t (1 : Fin 2) * 2048 + 1 * q.val = t.val * 2048 + q.val; omega
  show cross (fun k => V m c main_v24 (((cfg0.win 0).blk t).view.emb (ix2 p k)))
      (fun k => V m c main_v27 (((cfg0.win 1).blk t).view.emb (ix2 p k)))
      (fun k => V m c main_v28 (((cfg0.win 2).blk t).view.emb (ix2 k q)))
      (fun k => V m c main_v31 (((cfg0.win 3).blk t).view.emb (ix2 k q)))
    = Gout (V m c main_v24) (V m c main_v27) (V m c main_v28) (V m c main_v31) (((cfg0.win 4).blk t).view.emb (ix2 p q))
  rw [hemb4]
  simp only [hemb0, hemb1, hemb2, hemb3]
  rfl

/-- An index of the result is in point `t`'s block iff each coordinate is in the block's range on its axis. -/
theorem mem_blk4 (t : Fin cfg0.N) (i : S1024x8192.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v32).slice (win0_4.rect t)).set ↔ _
  rw [View.set_slice_whole, Rect.mem_set_unit]
  exact Iff.rfl

/-- The four blocks tile the result: column `j` is in block `j / 2048`. -/
theorem cover4 (i : S1024x8192.Idx) :
    ∃ t : Fin cfg0.N, (cfg0.win 4).flush t = true ∧ i ∈ ((cfg0.win 4).blk t).view.set := by
  have hi0 : (i 0).val < 1024 := (i 0).isLt
  have hi1 : (i 1).val < 8192 := (i 1).isLt
  have hN := N_0
  refine ⟨⟨(i 1).val / 2048, by show _ < grid0.N; rw [N_0]; omega⟩, flush0_4 _, ?_⟩
  rw [mem_blk4]
  obtain ⟨-, -, -, -, -, -, -, -, a40, a41⟩ := idx_facts ⟨(i 1).val / 2048, by show _ < grid0.N; rw [N_0]; omega⟩
  intro a
  match a with
  | ⟨0, _⟩ => show win0_4.index _ (0 : Fin 2) * 1024 ≤ (i 0).val ∧ (i 0).val < win0_4.index _ (0 : Fin 2) * 1024 + 1024; omega
  | ⟨1, _⟩ => show win0_4.index _ (1 : Fin 2) * 2048 ≤ (i 1).val ∧ (i 1).val < win0_4.index _ (1 : Fin 2) * 2048 + 2048; simp only [] at a41; omega

/-- The result array after the run. -/
theorem final4 (c : Dev nD) : (dats m 0 c).arrAt 4 cfg0.N
    = Gout (V m c main_v24) (V m c main_v27) (V m c main_v28) (V m c main_v31) :=
  (dats m 0 c).arrAt_eq_of_cover 4 _ (fun t _ => flushed4_eq m c t) cover4

/-- The run, read: the result array at `Gout` of the operand arrays the region found, the arguments unchanged. -/
theorem run : θ_run defs (onTc (τ := τ) (main (F := Ideal))) ⟨m, fun _ => 0, ρ⟩ fun r => ∀ c : Dev nD,
      r.2.mem ((c.tc : Thread nD τ).loc main_v32) = Gout (V m c main_v24) (V m c main_v27) (V m c main_v28) (V m c main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.HostDefs.lean ====
/-
  The host side of the kernel's program as pure functions of the argument arrays: what each of the four operand arrays
  of the matrix products is, before any index is read.

  `takeAlong tab e` gathers a parameter table along the edges: the edge word, taken modulo the table's width when
  negative, names a column; where that column is out of range the entry is the not-a-number pattern, else it is the
  table's entry (the gather clamps, which changes nothing in range).  From the gathered means `l` and scales `sc`:
  s = sc + 1/2, q = 1/(s·s), the quadratic and linear coefficients -q/2 and l·q, the constant -l²q/2 - log s - ½log2π
  summed over the layers into one row; `lhs x` is [x² | x | 1] and `coeffs l sc` is [-q/2 ; l·q ; Σ constants].
  `hi` keeps an array through the narrower format, `lo` is what is left of it after taking that away.
-/
import proofs.«412988_j55697135894671_3_alg».proof.Proof.Gen.KernelIdeal

noncomputable section

namespace Cert.KernelIdeal.Host

open Cert.KernelIdeal Idealize.ShloMosaic

variable {F : FTy → Type} [FloatOps F]

/-- The edge words as gather start indices: a negative word wraps by the table's width 4096. -/
def edgeIdx (e : IVec S16x8192 32) : IVec S16x8192x1 32 :=
  shapeCast S16x8192x1
    (select (cmpi .slt e (broadcastInDim S16x8192 ![] Facts₀.bcast_S_S16x8192 (constantI S_ 32 0#32)))
      (addi e (broadcastInDim S16x8192 ![] Facts₀.bcast_S_S16x8192 (constantI S_ 32 4096#32))) e)
    Facts₀.shapeCasts_S16x8192_S16x8192x1

/-- Whether a start index is a column of the table: 0 ≤ i ≤ 4095. -/
def inRange (i5 : IVec S16x8192x1 32) : IVec S16x8192 1 :=
  Host.reduce IntOp.andi
    (andi (cmpi .sge i5 (broadcastInDim S16x8192x1 ![] Facts₀.bcast_S_S16x8192x1 (constantI S_ 32 0#32)))
      (cmpi .sle i5 (broadcastInDim S16x8192x1 ![0, 1, 2] Facts₀.bcast_S1x1x1_S16x8192x1_0_1_2
        (broadcastInDim S1x1x1 ![2] Facts₀.bcast_S1_S1x1x1_2 (constantI S1 32 4095#32)))))
    (constantI S_ 1 1#1) Facts₀.reducesTo_S16x8192x1_S16x8192_d2 Facts₀.h_S_

/-- A parameter table gathered along the edges, the not-a-number pattern where the edge is out of range. -/
def takeAlong (tab : FVec F S16x4096 .f32) (e : IVec S16x8192 32) : FVec F S16x8192 .f32 :=
  select (inRange (edgeIdx e)) (Host.gather gather_S16x4096_S16x8192x1_S16x8192_n_1_0_0_1_2_11 tab (edgeIdx e))
    (broadcastInDim S16x8192 ![] Facts₀.bcast_S_S16x8192 (constant S_ .f32 0x7FC00000#32))

/-- s = the gathered scale + 1/2. -/
def sG (sc : FVec F S16x8192 .f32) : FVec F S16x8192 .f32 :=
  addf sc (broadcastInDim S16x8192 ![] Facts₀.bcast_S_S16x8192 (constant S_ .f32 0x3F000000#32))
/-- q = 1/(s·s). -/
def qG (s : FVec F S16x8192 .f32) : FVec F S16x8192 .f32 :=
  Host.divf (broadcastInDim S16x8192 ![] Facts₀.bcast_S_S16x8192 (constant S_ .f32 0x3F800000#32)) (mulf s s)
/-- The coefficient of x²: -q/2. -/
def aG (q : FVec F S16x8192 .f32) : FVec F S16x8192 .f32 :=
  mulf (broadcastInDim S16x8192 ![] Facts₀.bcast_S_S16x8192 (constant S_ .f32 0xBF000000#32)) q
/-- The coefficient of x: l·q. -/
def bG (l q : FVec F S16x8192 .f32) : FVec F S16x8192 .f32 := mulf l q
/-- The constant: -l²q/2 - log s - ½ log 2π. -/
def cG (l s q : FVec F S16x8192 .f32) : FVec F S16x8192 .f32 :=
  subf (subf (mulf (mulf (mulf (broadcastInDim S16x8192 ![] Facts₀.bcast_S_S16x8192 (constant S_ .f32 0xBF000000#32)) l) l) q)
      (Host.log s))
    (broadcastInDim S16x8192 ![] Facts₀.bcast_S_S16x8192 (constant S_ .f32 0x3F6B3F8E#32))
/-- The constants summed over the layers, as one row. -/
def biasRow (cst : FVec F S16x8192 .f32) : FVec F S1x8192 .f32 :=
  broadcastInDim S1x8192 ![1] Facts₀.bcast_S8192_S1x8192_1
    (Host.reduceAdd cst (constant S_ .f32 0x00000000#32) Facts₀.reducesTo_S16x8192_S8192_d0 Facts₀.h_S_)

/-- [x² | x | 1]. -/
def lhs (x : FVec F S1024x16 .f32) : FVec F S1024x33 .f32 :=
  concatenate S1024x33 1
    [⟨S1024x16, mulf x x⟩, ⟨S1024x16, x⟩,
      ⟨S1024x1, broadcastInDim S1024x1 ![] Facts₀.bcast_S_S1024x1 (constant S_ .f32 0x3F800000#32)⟩]
    Facts₀.concatenates_S1024x16_S1024x16_S1024x1_S1024x33_d1

/-- [-q/2 ; l·q ; Σ constants] from the gathered means `l` and scales `sc`. -/
def coeffs (l sc : FVec F S16x8192 .f32) : FVec F S33x8192 .f32 :=
  concatenate S33x8192 0
    [⟨S16x8192, aG (qG (sG sc))⟩, ⟨S16x8192, bG l (qG (sG sc))⟩, ⟨S1x8192, biasRow (cG l (sG sc) (qG (sG sc)))⟩]
    Facts₀.concatenates_S16x8192_S16x8192_S1x8192_S33x8192_d0

/-- An array through the narrower format … -/
def hi {s : Shape} (a : FVec F s .f32) : FVec F s .bf16 := truncf .bf16 a Facts₀.bitsLt_bf16_f32
/-- … and what is left of it after taking that away. -/
def lo {s : Shape} (a : FVec F s .f32) : FVec F s .bf16 :=
  truncf .bf16 (subf a (extf .f32 (truncf .bf16 a Facts₀.bitsLt_bf16_f32) Facts₀.bitsLt_bf16_f32)) Facts₀.bitsLt_bf16_f32

end Cert.KernelIdeal.Host

end
-- ==== Proof.LibNary3.lean ====
/-
  A host operation of three operands (a concatenation of three arrays), run: its result buffer holds the operation's
  function of the three operands' contents, each read AT ITS OWN BUFFER (so that what each operand holds can be read
  in turn), and every other buffer is as it was.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- The three-operand operation's result, the operands' contents listed one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for a rewriting pass that must not index on the result buffer's projections. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Any other buffer is as it was. -/
theorem nary3_result_ne'
    (f : ((k : Fin 3) → ((![x, a, b] : Fin 3 → Ref sig .tc) k).ty.Contents Val) → y.ty.Contents Val) (hxs hy)
    (F : Valuation τ sig Val) {r : Ref sig .tc} (h : r ≠ y) :
    (nary (τ := τ) ![x, a, b] y f hxs hy).result F (no_index (Proc.devRef .tc r)) = F (Proc.devRef .tc r) :=
  by rw [nary_result_ne]; exact h

end Cert.LibNary3
-- ==== Proof.HostTerms.lean ====
/-
  What the region finds in its four operand arrays, as functions of the four argument arrays.

  The program's host side is three stretches of operations run one after the other, so the buffers after all of them
  are the third stretch's fold over the second's over the first's.  The first stretch is the gather of the means table
  along the edges and the second the gather of the scales table: each leaves in its result buffer `takeAlong` of its
  table and the edge words, and neither writes an argument array nor the other's result.  The third stretch reads the
  sample array and the two gathered arrays only; it forms [x² | x | 1] and [-q/2 ; l·q ; Σ constants] and, of each, the
  part the narrower format keeps (`hi`) and what is left after taking that away (`lo`).  Each of these is the stretch's
  operations read off in order, an equation that holds by unfolding the operations; composing the three gives the four
  operand arrays as `hi` and `lo` of `lhs x` and of `coeffs` of the two gathered tables.  Stated for any float instance.
-/
import proofs.«412988_j55697135894671_3_alg».proof.Proof.RunKernelIdeal
import proofs.«412988_j55697135894671_3_alg».proof.Proof.HostDefs
import proofs.«412988_j55697135894671_3_alg».proof.Proof.LibNary3
import Idealize.ShloMosaic.Lib.StableHlo.Run

set_option maxRecDepth 16384

noncomputable section

namespace Cert.KernelIdeal.Run

open Cert.KernelIdeal Cert.KernelIdeal.Gen Cert.KernelIdeal.Host
open Idealize.ShloMosaic Idealize.ShloMosaic.TcCoe Idealize.SL.Sem Idealize.ShloMosaic.StableHlo

variable {F : FTy → Type} [FloatOps F]

/-! ## The two gathers -/

set_option maxHeartbeats 1000000 in
/-- The first stretch leaves the means table gathered along the edges: from buffers `X`, its result buffer holds
    `takeAlong` of the table and the edge words as `X` has them. -/
theorem after_hostOps0_v0 (X : Valuation τ sig (Elt F)) :
    after (hostOps0 (F := F)) X (Proc.devRef .tc main_v0)
      = takeAlong (X (Proc.devRef .tc main_arg1)) (X (Proc.devRef .tc main_arg3)) := by
  dsimp only [hostOps0, TRef.nullary, TRef.unary, TRef.binary, TRef.ternary, TRef.reshape]
  after_results_simp
  simp only [TRef.toBuf, TRef.ofBuf, cast_eq]
  rfl

set_option maxHeartbeats 1000000 in
/-- The second stretch leaves the scales table gathered along the edges. -/
theorem after_hostOps0_1_v1 (X : Valuation τ sig (Elt F)) :
    after (hostOps0_1 (F := F)) X (Proc.devRef .tc main_v1)
      = takeAlong (X (Proc.devRef .tc main_arg2)) (X (Proc.devRef .tc main_arg3)) := by
  dsimp only [hostOps0_1, TRef.nullary, TRef.unary, TRef.binary, TRef.ternary, TRef.reshape]
  after_results_simp
  simp only [TRef.toBuf, TRef.ofBuf, cast_eq]
  rfl

/-! ## What the gathers leave alone

The first stretch writes no argument array; the second writes neither the sample array nor the first's result. -/

theorem hostOps0_keeps_arg0 (X : Valuation τ sig (Elt F)) :
    after (hostOps0 (F := F)) X (Proc.devRef .tc main_arg0) = X (Proc.devRef .tc main_arg0) := rfl
theorem hostOps0_keeps_arg2 (X : Valuation τ sig (Elt F)) :
    after (hostOps0 (F := F)) X (Proc.devRef .tc main_arg2) = X (Proc.devRef .tc main_arg2) := rfl
theorem hostOps0_keeps_arg3 (X : Valuation τ sig (Elt F)) :
    after (hostOps0 (F := F)) X (Proc.devRef .tc main_arg3) = X (Proc.devRef .tc main_arg3) := rfl
theorem hostOps0_1_keeps_arg0 (X : Valuation τ sig (Elt F)) :
    after (hostOps0_1 (F := F)) X (Proc.devRef .tc main_arg0) = X (Proc.devRef .tc main_arg0) := rfl
theorem hostOps0_1_keeps_v0 (X : Valuation τ sig (Elt F)) :
    after (hostOps0_1 (F := F)) X (Proc.devRef .tc main_v0) = X (Proc.devRef .tc main_v0) := rfl

/-! ## The operands and their remainders

The third stretch, from buffers `X`: each equation is its operations read off in order — the result of each at its own
buffer is its function of its operands' contents, every other buffer is as it was —, the three-operand concatenations
taking their operands one by one. -/

set_option maxHeartbeats 4000000 in
/-- The leading part of [x² | x | 1]. -/
theorem after_hostOps0_2_v24 (X : Valuation τ sig (Elt F)) :
    after (hostOps0_2 (F := F)) X (Proc.devRef .tc main_v24) = hi (lhs (X (Proc.devRef .tc main_arg0))) := rfl

set_option maxHeartbeats 4000000 in
/-- The remainder of [x² | x | 1]. -/
theorem after_hostOps0_2_v27 (X : Valuation τ sig (Elt F)) :
    after (hostOps0_2 (F := F)) X (Proc.devRef .tc main_v27) = lo (lhs (X (Proc.devRef .tc main_arg0))) := rfl

set_option maxHeartbeats 4000000 in
/-- The leading part of the coefficient matrix, from the gathered means and scales. -/
theorem after_hostOps0_2_v28 (X : Valuation τ sig (Elt F)) :
    after (hostOps0_2 (F := F)) X (Proc.devRef .tc main_v28)
      = hi (coeffs (X (Proc.devRef .tc main_v0)) (X (Proc.devRef .tc main_v1))) := rfl

set_option maxHeartbeats 4000000 in
/-- The remainder of the coefficient matrix. -/
theorem after_hostOps0_2_v31 (X : Valuation τ sig (Elt F)) :
    after (hostOps0_2 (F := F)) X (Proc.devRef .tc main_v31)
      = lo (coeffs (X (Proc.devRef .tc main_v0)) (X (Proc.devRef .tc main_v1))) := rfl

/-! ## The region's operands -/

variable (m : (ℓ : Loc nD τ sig) → Buf (Elt F) ℓ) (c : Dev nD)

/-- The buffers when the region is entered are the third stretch's after the second's after the first's. -/
theorem V_split (b : Ref sig .tc) :
    V m c b = after hostOps0_2 (after hostOps0_1 (after hostOps0 (fun b => m (c, b)))) (Proc.devRef .tc b) := by
  dsimp only [V]
  rw [List.flatten_cons, List.flatten_cons, List.flatten_cons, List.flatten_nil, List.append_nil,
    StableHlo.after_append, StableHlo.after_append]

/-- The first operand's leading part is that of [x² | x | 1] at the sample array as launched. -/
theorem V_main_v24 : V m c main_v24 = hi (lhs (m ((c : Thread nD τ).loc main_arg0))) := by
  rw [V_split, after_hostOps0_2_v24, hostOps0_1_keeps_arg0, hostOps0_keeps_arg0]

/-- The first operand's remainder. -/
theorem V_main_v27 : V m c main_v27 = lo (lhs (m ((c : Thread nD τ).loc main_arg0))) := by
  rw [V_split, after_hostOps0_2_v27, hostOps0_1_keeps_arg0, hostOps0_keeps_arg0]

/-- The second operand's leading part is that of the coefficient matrix of the two tables gathered along the edges,
    all three as launched. -/
theorem V_main_v28 : V m c main_v28
    = hi (coeffs (takeAlong (m ((c : Thread nD τ).loc main_arg1)) (m ((c : Thread nD τ).loc main_arg3)))
        (takeAlong (m ((c : Thread nD τ).loc main_arg2)) (m ((c : Thread nD τ).loc main_arg3)))) := by
  rw [V_split, after_hostOps0_2_v28, hostOps0_1_keeps_v0, after_hostOps0_v0, after_hostOps0_1_v1,
    hostOps0_keeps_arg2, hostOps0_keeps_arg3]

/-- The second operand's remainder. -/
theorem V_main_v31 : V m c main_v31
    = lo (coeffs (takeAlong (m ((c : Thread nD τ).loc main_arg1)) (m ((c : Thread nD τ).loc main_arg3)))
        (takeAlong (m ((c : Thread nD τ).loc main_arg2)) (m ((c : Thread nD τ).loc main_arg3)))) := by
  rw [V_split, after_hostOps0_2_v31, hostOps0_1_keeps_v0, after_hostOps0_v0, after_hostOps0_1_v1,
    hostOps0_keeps_arg2, hostOps0_keeps_arg3]

end Cert.KernelIdeal.Run

end
-- ==== Proof.HostReadA.lean ====
/-
  The host side of the kernel read at an index, over the extended reals.

  The left operand [x² | x | 1] is a concatenation of three pieces of 16, 16 and 1 columns: column k reads the square
  of x[b, k] below 16, x[b, k − 16] below 32, and the constant one at 32.  Over the extended reals the narrower format
  keeps every entry, so the leading part is the entry and the remainder is the entry minus itself.

  A parameter table gathered along the edges reads, at (c, n), the table at row c and at the column the edge word at
  (c, n) names: an edge word below 4096 is not negative, so it does not wrap; it is a column of the table, so the
  in-range mask is 1 and the clamp changes nothing; and it is its own residue modulo 4096.
-/
import proofs.«412988_j55697135894671_3_alg».proof.Proof.HostDefs
import proofs.«412988_j55697135894671_3_alg».proof.Proof.Spec
import Idealize.ShloMosaic.Lib.ValueIdx
import Idealize.ShloMosaic.Lib.Pipeline.Value
import Idealize.ShloMosaic.Lib.StableHlo.Predicate
import Idealize.ShloMosaic.Lib.ReduceAll

noncomputable section

namespace Cert.Mix

open Cert.KernelIdeal Cert.KernelIdeal.Host Idealize.ShloMosaic Idealize.ShloMosaic.ValueIdx

/-! ## The left operand -/

namespace HostA

/-- The left operand [x² | x | 1] read at (b, k): the piece of the concatenation that holds column k. -/
theorem lhs_apply (x : Cert.KernelIdeal.S1024x16.Idx → EReal) (b : Fin 1024) (k : Fin 33) :
    lhs (F := Ideal) x (ix2 b k) = lhsAt x b k := by
  unfold lhs lhsAt
  by_cases h1 : k.val < 16
  · rw [dif_pos h1]
    refine (concatenate_apply_piece (t := S1024x33) 1 _ _ (ix2 b k) 0 ?hk S1024x16 (mulf x x) rfl rfl 0 rfl
      (ix2 b ⟨k.val, h1⟩) ?_ ?_).trans ?_
    case hk => exact Nat.succ_pos _
    · intro a ha
      match a with
      | ⟨0, _⟩ => rfl
      | ⟨1, _⟩ => exact absurd rfl ha
    · show 0 + k.val = k.val
      omega
    · rfl
  · rw [dif_neg h1]
    by_cases h2 : k.val < 32
    · rw [dif_pos h2]
      refine (concatenate_apply_piece (t := S1024x33) 1 _ _ (ix2 b k) 1 ?hk S1024x16 x rfl rfl 16 rfl
        (ix2 b ⟨k.val - 16, by omega⟩) ?_ ?_)
      case hk => exact Nat.succ_lt_succ (Nat.succ_pos _)
      · intro a ha
        match a with
        | ⟨0, _⟩ => rfl
        | ⟨1, _⟩ => exact absurd rfl ha
      · show 16 + (k.val - 16) = k.val
        omega
    · rw [dif_neg h2]
      refine (concatenate_apply_piece (t := S1024x33) 1 _ _ (ix2 b k) 2 ?hk S1024x1 _ rfl rfl 32 rfl
        (ix2 b ⟨0, by omega⟩) ?_ ?_).trans ?_
      case hk => exact Nat.succ_lt_succ (Nat.succ_lt_succ (Nat.succ_pos _))
      · intro a ha
        match a with
        | ⟨0, _⟩ => rfl
        | ⟨1, _⟩ => exact absurd rfl ha
      · show 32 + 0 = k.val
        have := k.isLt
        omega
      · rfl

end HostA

/-- The leading part of the left operand: over the extended reals the narrower format keeps every entry. -/
theorem lhs_hi_apply (x : Cert.KernelIdeal.S1024x16.Idx → EReal) (b : Fin 1024) (k : Fin 33) :
    hi (F := Ideal) (lhs x) (ix2 b k) = lhsAt x b k :=
  HostA.lhs_apply x b k

/-- The remainder of the left operand: an entry minus itself. -/
theorem lhs_lo_apply (x : Cert.KernelIdeal.S1024x16.Idx → EReal) (b : Fin 1024) (k : Fin 33) :
    lo (F := Ideal) (lhs x) (ix2 b k) = lhsAt x b k - lhsAt x b k := by
  show lhs (F := Ideal) x (ix2 b k) - lhs (F := Ideal) x (ix2 b k) = _
  rw [HostA.lhs_apply]

namespace HostA

/-! ## Words -/

/-- A word below 2³¹ is not negative: the signed comparison with zero says no. -/
theorem slt_zero_of_small (w : BitVec 32) (h : w.toNat < 2 ^ 31) : IntOp.cmpi .slt w 0#32 = 0#1 :=
  eq_zero_of_ne_one fun h1 =>
    absurd ((StableHlo.Predicate.slt_iff_toNat h (by decide)).1 h1) (by simp)

/-- A word below 2³¹ read signed is its value. -/
theorem toInt_toNat_of_small (w : BitVec 32) (h : w.toNat < 2 ^ 31) : w.toInt.toNat = w.toNat := by
  rw [StableHlo.Predicate.toInt_eq_toNat_of_lt h, Int.toNat_natCast]

/-- A left fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf => by
    rw [List.foldl_cons]
    refine foldl_andi_one f l _ ?_ (fun n hn => hf n (List.mem_cons_of_mem _ hn))
    rw [hi, hf a List.mem_cons_self]
    decide

/-! ## The start indices and the in-range mask -/

/-- The start index at (c, n, 0) is the edge word at (c, n): a word in range is not negative, so it does not wrap. -/
theorem edgeIdx_apply (e : Cert.KernelIdeal.S16x8192.Idx → BitVec 32) (hrange : ∀ i, (e i).toNat < 4096)
    (i : Cert.KernelIdeal.S16x8192x1.Idx) : edgeIdx e i = e (ix2 (i 0) (i 1)) := by
  unfold edgeIdx
  refine (shapeCast_apply _ _ i (ix2 (i 0) (i 1)) ?_).trans ?_
  · rw [Shape.rowMajor_val_two, Shape.rowMajor_val_three]
    show (i 0).val * 8192 + (i 1).val = ((i 0).val * 8192 + (i 1).val) * 1 + (i 2).val
    have h2 : (i 2).val < 1 := (i 2).isLt
    omega
  · show Scalar.select (IntOp.cmpi .slt (e (ix2 (i 0) (i 1))) 0#32) _ _ = _
    rw [slt_zero_of_small _ (by have := hrange (ix2 (i 0) (i 1)); omega), select_zero]
    rfl

/-- Every start index is a column of the table, so the mask is 1 everywhere. -/
theorem inRange_apply (e : Cert.KernelIdeal.S16x8192.Idx → BitVec 32) (hrange : ∀ i, (e i).toNat < 4096)
    (j : Cert.KernelIdeal.S16x8192.Idx) : inRange (edgeIdx e) j = 1#1 := by
  unfold inRange
  rw [Host.reduce_eq_foldl]
  refine foldl_andi_one _ _ _ rfl (fun i _ => ?_)
  show IntOp.andi (IntOp.cmpi .sge (edgeIdx e i) 0#32) (IntOp.cmpi .sle (edgeIdx e i) 4095#32) = 1#1
  rw [edgeIdx_apply e hrange i]
  have hr := hrange (ix2 (i 0) (i 1))
  rw [(StableHlo.Predicate.sge_iff_toNat (by omega) (by decide)).2 (by simp),
    (StableHlo.Predicate.sle_iff_toNat (by omega) (by decide)).2 (by
      show (e (ix2 (i 0) (i 1))).toNat ≤ 4095
      omega)]
  decide

/-! ## The gather at an index

The layer axis of the table is a batching axis (paired with the start indices' layer axis), the column axis is
collapsed and start-indexed, the index vector lies on the start indices' last (unit) axis: result entry (c, n) reads
the table at row c and at the column the start index at (c, n, 0) names, read signed and clamped into the table. -/

/-- The gather's dimension numbers. -/
abbrev gd := gather_S16x4096_S16x8192x1_S16x8192_n_1_0_0_1_2_11

/-- Result index (c, n) reads the one component of its start index at (c, n, 0). -/
theorem gd_siIdx (j : Cert.KernelIdeal.S16x8192.Idx) (k : Fin 1) : gd.siIdx j k = ix3 (j 0) (j 1) k := by
  funext b
  refine Fin.ext ?_
  match b with
  | ⟨0, _⟩ => rfl
  | ⟨1, _⟩ => rfl
  | ⟨2, _⟩ => rfl

/-- The layer axis is not start-indexed: its slice starts at 0. -/
theorem gd_start0 (j : Cert.KernelIdeal.S16x8192.Idx) (I : IVec Cert.KernelIdeal.S16x8192x1 32) : gd.start j I 0 = 0 := by
  unfold GatherDims.start
  rw [dif_neg (by decide)]

/-- The column axis starts at the start index, clamped into [0, 4095]. -/
theorem gd_start1 (j : Cert.KernelIdeal.S16x8192.Idx) (I : IVec Cert.KernelIdeal.S16x8192x1 32) :
    gd.start j I 1 = min (I (ix3 (j 0) (j 1) (0 : Fin 1))).toInt.toNat 4095 := by
  unfold GatherDims.start
  rw [dif_pos (by decide)]
  exact congrArg (fun i => min (I i).toInt.toNat 4095) (gd_siIdx j 0)

/-- The layer axis is a batching axis: its coordinate is the result's layer coordinate. -/
theorem gd_batch0 (j : Cert.KernelIdeal.S16x8192.Idx) : gd.batchCoord j 0 = (j 0).val := by
  unfold GatherDims.batchCoord
  rw [dif_pos (by decide)]
  rfl

/-- THE GATHER READ AT (c, n): the table at (c, clamp I[c, n, 0]). -/
theorem gather_apply {α : Type} (T : Cert.KernelIdeal.S16x4096.Idx → α) (I : IVec Cert.KernelIdeal.S16x8192x1 32)
    (c : Fin 16) (n : Fin 8192) :
    Host.gather gd T I (ix2 c n) = T (ix2 c ⟨min (I (ix3 c n (0 : Fin 1))).toInt.toNat 4095, by omega⟩) := by
  unfold Host.gather
  congr 1
  funext a
  refine Fin.ext ?_
  match a with
  | ⟨0, _⟩ =>
    show gd.start (ix2 c n) I 0 + gd.batchCoord (ix2 c n) 0 + gd.offCoord (ix2 c n) 0 = c.val
    rw [gd_start0, gd_batch0, GatherDims.offCoord_eq_zero _ _ _ (by decide)]
    simp
  | ⟨1, _⟩ =>
    show gd.start (ix2 c n) I 1 + gd.batchCoord (ix2 c n) 1 + gd.offCoord (ix2 c n) 1 = _
    rw [gd_start1, GatherDims.batchCoord_eq_zero _ _ _ (by decide), GatherDims.offCoord_eq_zero _ _ _ (by decide)]
    rfl

end HostA

/-! ## The table gathered along the edges -/

open HostA in
/-- A parameter table gathered along in-range edges, read at (c, n): the table at (c, the edge's column). -/
theorem takeAlong_apply (tab : Cert.KernelIdeal.S16x4096.Idx → EReal) (e : Cert.KernelIdeal.S16x8192.Idx → BitVec 32)
    (hrange : ∀ i, (e i).toNat < 4096) (c : Fin 16) (n : Fin 8192) :
    takeAlong (F := Ideal) tab e (ix2 c n) = tab (ix2 c (node e c n)) := by
  unfold takeAlong
  rw [select_apply, inRange_apply e hrange, select_one]
  refine (gather_apply tab (edgeIdx e) c n).trans ?_
  refine congrArg (fun q => tab (ix2 c q)) (Fin.ext ?_)
  show min (edgeIdx e (ix3 c n (0 : Fin 1))).toInt.toNat 4095 = (e (ix2 c n)).toNat % 4096
  rw [edgeIdx_apply e hrange]
  show min (e (ix2 c n)).toInt.toNat 4095 = (e (ix2 c n)).toNat % 4096
  have hr := hrange (ix2 c n)
  rw [toInt_toNat_of_small _ (by omega), Nat.mod_eq_of_lt hr]
  omega

end Cert.Mix

end
-- ==== Proof.HostReadB.lean ====
/-
  The coefficient matrix read at an index, over plain extended reals.

  The matrix is three blocks stacked along the rows: sixteen rows of quadratic coefficients  -1/2 · 1/(s·s),  sixteen rows
  of linear coefficients  l · 1/(s·s),  and one row holding, for each column, the constants
  -1/2 · l² · 1/(s·s) - log s - 1/2 log 2π  summed over the sixteen layers from zero; here  s = sc + 1/2  with l, sc
  the gathered means and scales.  Row k therefore falls in the block its number selects (k < 16, 16 ≤ k < 32, k = 32),
  every entry is the extended reals' own arithmetic on the entries of l and sc, and once the gathered arrays are
  identified with the tables read at the children this is the specification's column.  Through the narrower format an
  extended real passes unchanged, so the leading part is the matrix itself and the remainder is each entry minus itself.
-/
import proofs.«412988_j55697135894671_3_alg».proof.Proof.HostDefs
import proofs.«412988_j55697135894671_3_alg».proof.Proof.Spec
import Idealize.ShloMosaic.Lib.ValueIdx
import Idealize.ShloMosaic.Lib.Pipeline.Value
import Idealize.ShloMosaic.PureOps.Ideal.Laws

noncomputable section

open scoped BigOperators

namespace Cert.Mix

open Cert.KernelIdeal Cert.KernelIdeal.Host Idealize.ShloMosaic Idealize.ShloMosaic.ValueIdx

/-! ## The pointwise stages at an index -/

/-- s = sc + 1/2. -/
theorem sG_apply (sc : S16x8192.Idx → EReal) (i : S16x8192.Idx) : sG (F := Ideal) sc i = sc i + wHalf := rfl

/-- q = 1/(s·s). -/
theorem qG_apply (s : S16x8192.Idx → EReal) (i : S16x8192.Idx) : qG (F := Ideal) s i = invSq (s i) := rfl

/-- The quadratic coefficient, -1/2 · q. -/
theorem aG_apply (q : S16x8192.Idx → EReal) (i : S16x8192.Idx) : aG (F := Ideal) q i = wNegHalf * q i := rfl

/-- The linear coefficient, l · q. -/
theorem bG_apply (l q : S16x8192.Idx → EReal) (i : S16x8192.Idx) : bG (F := Ideal) l q i = l i * q i := rfl

/-- The constant, -1/2 · l · l · q - log s - 1/2 log 2π. -/
theorem cG_apply (l s q : S16x8192.Idx → EReal) (i : S16x8192.Idx) :
    cG (F := Ideal) l s q i = (((wNegHalf * l i) * l i) * q i - Ideal.log (s i)) - wHalfLog2pi := rfl

/-- The row of summed constants at column n: zero plus the sum over the sixteen layers. -/
theorem biasRow_apply (cst : S16x8192.Idx → EReal) (n : Fin 8192) :
    biasRow (F := Ideal) cst (ix2 (0 : Fin 1) n) = wZero + ∑ c : Fin 16, cst (ix2 c n) := by
  unfold biasRow
  rw [broadcastInDim_apply _ Facts₀.bcast_S8192_S1x8192_1 _ (ix2 (0 : Fin 1) n) (ix1 n) (fun a => match a with
    | ⟨0, _⟩ => by show n.val = if (8192 : Nat) = 1 then 0 else n.val; rw [if_neg (by decide)])]
  simp only [Host.reduceAdd, Ideal.hostReduceAdd_def]
  rw [Ideal.hostReduceAdd_single Facts₀.reducesTo_S16x8192_S8192_d0 (by decide)]
  refine congrArg (_ + ·) (Finset.sum_congr rfl fun c _ => ?_)
  exact congrArg cst (funext fun a => Fin.ext (by match a with | ⟨0, _⟩ => rfl | ⟨1, _⟩ => rfl))

/-! ## Three blocks of 16, 16 and 1 rows stacked: row k is in the block its number selects -/

section Stack
variable {α : Type} (A B : S16x8192.Idx → α) (C : S1x8192.Idx → α)
  (h : Shape.Concatenates [S16x8192, S16x8192, S1x8192] S33x8192 0)

/-- A row below 16 is that row of the first block. -/
theorem stack3_top (k : Fin 33) (n : Fin 8192) (hk : k.val < 16) :
    concatenate S33x8192 0 [⟨S16x8192, A⟩, ⟨S16x8192, B⟩, ⟨S1x8192, C⟩] h (ix2 k n) = A (ix2 ⟨k.val, hk⟩ n) := by
  refine concatenate_apply_piece (t := S33x8192) (0 : Fin S33x8192.rank) [⟨S16x8192, A⟩, ⟨S16x8192, B⟩, ⟨S1x8192, C⟩] h
    (ix2 k n) 0 (by show 0 < 3; omega) S16x8192 A rfl rfl 0 rfl (ix2 ⟨k.val, hk⟩ n) ?_ ?_
  · intro b hb
    match b, hb with
    | ⟨0, _⟩, hb => exact absurd rfl hb
    | ⟨1, _⟩, _ => rfl
  · show 0 + k.val = k.val
    omega

/-- A row from 16 to 31 is row k - 16 of the second block. -/
theorem stack3_mid (k : Fin 33) (n : Fin 8192) (hk : 16 ≤ k.val) (hk2 : k.val < 32) :
    concatenate S33x8192 0 [⟨S16x8192, A⟩, ⟨S16x8192, B⟩, ⟨S1x8192, C⟩] h (ix2 k n)
      = B (ix2 ⟨k.val - 16, by omega⟩ n) := by
  refine concatenate_apply_piece (t := S33x8192) (0 : Fin S33x8192.rank) [⟨S16x8192, A⟩, ⟨S16x8192, B⟩, ⟨S1x8192, C⟩] h
    (ix2 k n) 1 (by show 1 < 3; omega) S16x8192 B rfl rfl 16 rfl (ix2 ⟨k.val - 16, by omega⟩ n) ?_ ?_
  · intro b hb
    match b, hb with
    | ⟨0, _⟩, hb => exact absurd rfl hb
    | ⟨1, _⟩, _ => rfl
  · show 16 + (k.val - 16) = k.val
    omega

/-- Row 32 is the one row of the third block. -/
theorem stack3_bot (k : Fin 33) (n : Fin 8192) (hk : ¬ k.val < 32) :
    concatenate S33x8192 0 [⟨S16x8192, A⟩, ⟨S16x8192, B⟩, ⟨S1x8192, C⟩] h (ix2 k n) = C (ix2 (0 : Fin 1) n) := by
  refine concatenate_apply_piece (t := S33x8192) (0 : Fin S33x8192.rank) [⟨S16x8192, A⟩, ⟨S16x8192, B⟩, ⟨S1x8192, C⟩] h
    (ix2 k n) 2 (by show 2 < 3; omega) S1x8192 C rfl rfl 32 rfl (ix2 (0 : Fin 1) n) ?_ ?_
  · intro b hb
    match b, hb with
    | ⟨0, _⟩, hb => exact absurd rfl hb
    | ⟨1, _⟩, _ => rfl
  · show 32 + 0 = k.val
    have := k.isLt
    omega

end Stack

/-! ## The coefficient matrix at (k, n) -/

/-- Entry (k, n) of the coefficient matrix in terms of the gathered means and scales. -/
theorem coeffs_apply (l sc : S16x8192.Idx → EReal) (k : Fin 33) (n : Fin 8192) :
    coeffs (F := Ideal) l sc (ix2 k n)
      = if h : k.val < 16 then quadCoef (sc (ix2 ⟨k.val, h⟩ n) + wHalf)
        else if h2 : k.val < 32 then
          linCoef (l (ix2 ⟨k.val - 16, by omega⟩ n)) (sc (ix2 ⟨k.val - 16, by omega⟩ n) + wHalf)
        else wZero + ∑ c : Fin 16, constCoef (l (ix2 c n)) (sc (ix2 c n) + wHalf) := by
  unfold coeffs
  by_cases h : k.val < 16
  · rw [dif_pos h, stack3_top _ _ _ _ k n h]
    rfl
  · rw [dif_neg h]
    by_cases h2 : k.val < 32
    · rw [dif_pos h2, stack3_mid _ _ _ _ k n (by omega) h2]
      rfl
    · rw [dif_neg h2, stack3_bot _ _ _ _ k n h2, biasRow_apply]
      rfl

/-- The same entry once the gathered arrays are the tables read at the children: the specification's column. -/
theorem coeffs_eq_coAt (l sc : S16x8192.Idx → EReal) (locs scales : SP.Idx → EReal) (e : SE.Idx → BitVec 32)
    (hl : ∀ (c : Fin 16) (n : Fin 8192), l (ix2 c n) = locs (ix2 c (node e c n)))
    (hs : ∀ (c : Fin 16) (n : Fin 8192), sc (ix2 c n) = scales (ix2 c (node e c n)))
    (k : Fin 33) (n : Fin 8192) : coeffs (F := Ideal) l sc (ix2 k n) = coAt locs scales e k n := by
  rw [coeffs_apply]
  unfold coAt biasAt sAt locAt
  by_cases h : k.val < 16
  · rw [dif_pos h, dif_pos h, hs]
  · rw [dif_neg h, dif_neg h]
    by_cases h2 : k.val < 32
    · rw [dif_pos h2, dif_pos h2, hl, hs]
    · rw [dif_neg h2, dif_neg h2]
      refine congrArg (_ + ·) (Finset.sum_congr rfl fun c _ => ?_)
      rw [hl, hs]

/-- The leading part of the coefficient matrix is the specification's column. -/
theorem coeffs_hi_of (l sc : Cert.KernelIdeal.S16x8192.Idx → EReal) (locs scales : SP.Idx → EReal) (e : SE.Idx → BitVec 32)
    (hl : ∀ (c : Fin 16) (n : Fin 8192), l (ix2 c n) = locs (ix2 c (node e c n)))
    (hs : ∀ (c : Fin 16) (n : Fin 8192), sc (ix2 c n) = scales (ix2 c (node e c n)))
    (k : Fin 33) (n : Fin 8192) : hi (F := Ideal) (coeffs l sc) (ix2 k n) = coAt locs scales e k n := by
  show coeffs (F := Ideal) l sc (ix2 k n) = _
  exact coeffs_eq_coAt l sc locs scales e hl hs k n

/-- The remainder of the coefficient matrix is each entry of the specification's column minus itself. -/
theorem coeffs_lo_of (l sc : Cert.KernelIdeal.S16x8192.Idx → EReal) (locs scales : SP.Idx → EReal) (e : SE.Idx → BitVec 32)
    (hl : ∀ (c : Fin 16) (n : Fin 8192), l (ix2 c n) = locs (ix2 c (node e c n)))
    (hs : ∀ (c : Fin 16) (n : Fin 8192), sc (ix2 c n) = scales (ix2 c (node e c n)))
    (k : Fin 33) (n : Fin 8192) :
    lo (F := Ideal) (coeffs l sc) (ix2 k n) = coAt locs scales e k n - coAt locs scales e k n := by
  show coeffs (F := Ideal) l sc (ix2 k n) - coeffs (F := Ideal) l sc (ix2 k n) = _
  rw [coeffs_eq_coAt l sc locs scales e hl hs k n]

end Cert.Mix

end
-- ==== Proof.Algebra.lean ====
/-
  The algebra of the certificate: with real entries and positive scales the kernel's result equals the reference's.

  Every literal word is a real number (1/2, -1/2, 1, 0, a real for log 2π and exactly half of it).  A scale
  s = scales + 1/2 is a positive real, so 1/(s·s), log s and all three coefficients of a child are real.  Hence each
  remainder (an entry minus itself) is 0, the two remainder products vanish, and the leading product over the 33
  positions splits into  Σ x²·(-q/2) + Σ x·(l·q) + 1·Σ(-l²q/2 - log s - 1/2 log 2π),  which is the sum over the layers
  of  -1/2 ((x - l)/s)² - log s - 1/2 log 2π  by expanding the square termwise.
-/
import proofs.«412988_j55697135894671_3_alg».proof.Proof.Spec

noncomputable section
open scoped BigOperators
namespace Cert.Mix
open Idealize.ShloMosaic Idealize.ShloMosaic.ValueIdx

/-! ## The literal words as real numbers -/

theorem wZero_eq : wZero = 0 := by simp [wZero, Ideal.ofBits, Ideal.ieee]

theorem wOne_eq : wOne = ((1 : ℝ) : EReal) := by
  simp [wOne, Ideal.ofBits, Ideal.ieee, -EReal.coe_mul]; norm_num

theorem wHalf_eq : wHalf = ((1 / 2 : ℝ) : EReal) := by
  simp [wHalf, Ideal.ofBits, Ideal.ieee, -EReal.coe_mul]; norm_num

theorem wNegHalf_eq : wNegHalf = ((-1 / 2 : ℝ) : EReal) := by
  simp [wNegHalf, Ideal.ofBits, Ideal.ieee, -EReal.coe_mul]
  rw [← EReal.coe_neg]; congr 1; norm_num

/-- The real number the word for `log 2π` denotes: significand 15417230 at exponent 0. -/
def log2piR : ℝ := 15417230 / 2 ^ 23

theorem wLog2pi_eq : wLog2pi = (log2piR : EReal) := by
  simp [wLog2pi, log2piR, Ideal.ofBits, Ideal.ieee, -EReal.coe_mul]; norm_num

/-- The same significand one binade down is exactly half of it. -/
theorem wHalfLog2pi_eq : wHalfLog2pi = ((1 / 2 * log2piR : ℝ) : EReal) := by
  simp [wHalfLog2pi, log2piR, Ideal.ofBits, Ideal.ieee, -EReal.coe_mul]; norm_num

theorem wHalfLog2pi_eq_mul : wHalfLog2pi = wHalf * wLog2pi := by
  rw [wHalfLog2pi_eq, wHalf_eq, wLog2pi_eq, ← EReal.coe_mul]

/-! ## Each child's quantities at real arguments -/

theorem invSq_coe {s : ℝ} (hs : 0 < s) : invSq (s : EReal) = ((1 / (s * s) : ℝ) : EReal) := by
  have h : s * s ≠ 0 := (mul_pos hs hs).ne'
  rw [invSq, ← EReal.coe_mul, Ideal.div_coe h, wOne_eq, ← EReal.coe_mul, one_mul]

theorem quadCoef_coe {s : ℝ} (hs : 0 < s) : quadCoef (s : EReal) = ((-1 / 2 * (1 / (s * s)) : ℝ) : EReal) := by
  rw [quadCoef, invSq_coe hs, wNegHalf_eq, ← EReal.coe_mul]

theorem linCoef_coe (l : ℝ) {s : ℝ} (hs : 0 < s) :
    linCoef (l : EReal) (s : EReal) = ((l * (1 / (s * s)) : ℝ) : EReal) := by
  rw [linCoef, invSq_coe hs, ← EReal.coe_mul]

theorem log_coe_pos {s : ℝ} (hs : 0 < s) : Ideal.log (s : EReal) = ((Real.log s : ℝ) : EReal) := by
  rw [Ideal.log_coe, if_neg (not_le.mpr hs)]

theorem constCoef_coe (l : ℝ) {s : ℝ} (hs : 0 < s) :
    constCoef (l : EReal) (s : EReal)
      = ((((-1 / 2 * l) * l) * (1 / (s * s)) - Real.log s - 1 / 2 * log2piR : ℝ) : EReal) := by
  rw [constCoef, invSq_coe hs, log_coe_pos hs, wNegHalf_eq, wHalfLog2pi_eq, ← EReal.coe_mul, ← EReal.coe_mul,
    ← EReal.coe_mul, ← EReal.coe_sub, ← EReal.coe_sub]

theorem llTerm_coe (xv l : ℝ) {s : ℝ} (hs : 0 < s) :
    llTerm (xv : EReal) (l : EReal) (s : EReal)
      = ((((-1 / 2 * ((xv - l) * (1 / s))) * ((xv - l) * (1 / s)) - Real.log s) - 1 / 2 * log2piR : ℝ) : EReal) := by
  rw [llTerm, Ideal.div_coe hs.ne', log_coe_pos hs, wNegHalf_eq, wHalf_eq, wLog2pi_eq, ← EReal.coe_sub,
    ← EReal.coe_mul, ← EReal.coe_mul, ← EReal.coe_mul, ← EReal.coe_mul, ← EReal.coe_sub, ← EReal.coe_sub]

/-- The square expanded: one child's log-density is its quadratic, linear and constant parts added. -/
theorem expand_real (xv l : ℝ) {s : ℝ} (hs : 0 < s) :
    (xv * xv) * (-1 / 2 * (1 / (s * s))) + xv * (l * (1 / (s * s)))
        + (((-1 / 2 * l) * l) * (1 / (s * s)) - Real.log s - 1 / 2 * log2piR)
      = ((-1 / 2 * ((xv - l) * (1 / s))) * ((xv - l) * (1 / s)) - Real.log s) - 1 / 2 * log2piR := by
  have h : s ≠ 0 := hs.ne'
  field_simp
  ring

/-! ## Finite sums -/

/-- A finite sum of real numbers, formed among the extended reals, is the real sum. -/
theorem coe_finset_sum {ι : Type} (t : Finset ι) (f : ι → ℝ) :
    (∑ i ∈ t, (f i : EReal)) = ((∑ i ∈ t, f i : ℝ) : EReal) := by
  classical
  refine Finset.induction_on t ?_ ?_
  · simp
  · intro a t ha ih
    rw [Finset.sum_insert ha, Finset.sum_insert ha, ih, EReal.coe_add]

/-- Thirty-three positions are sixteen, sixteen more, and a last one. -/
theorem sum_fin33 (F : Fin 33 → EReal) :
    ∑ k, F k
      = (∑ c : Fin 16, F ⟨c.val, by omega⟩ + ∑ c : Fin 16, F ⟨c.val + 16, by omega⟩) + F ⟨32, by omega⟩ := by
  rw [Fin.sum_univ_castSucc]
  have h := Fin.sum_univ_add (a := 16) (b := 16) (fun i : Fin (16 + 16) => F (Fin.castSucc i))
  refine (congrArg (· + F (Fin.last 32)) h).trans ?_
  refine congrArg₂ (· + ·) (congrArg₂ (· + ·) ?_ ?_) rfl
  · rfl
  · exact Finset.sum_congr rfl fun c _ => congrArg F (Fin.ext (by simp [Nat.add_comm]))

/-! ## The two operands at each position -/

section Main

variable (x : SX.Idx → EReal) (locs scales : SP.Idx → EReal) (edges : SE.Idx → BitVec 32)
  (b : Fin 1024) (n : Fin 8192)

theorem lhsAt_lo (c : Fin 16) (h : c.val < 33) : lhsAt x b ⟨c.val, h⟩ = x (ix2 b c) * x (ix2 b c) := by
  unfold lhsAt
  rw [dif_pos c.isLt]

theorem lhsAt_mid (c : Fin 16) (h : c.val + 16 < 33) : lhsAt x b ⟨c.val + 16, h⟩ = x (ix2 b c) := by
  unfold lhsAt
  rw [dif_neg (by simp), dif_pos (by simp; omega)]
  exact congrArg (fun j => x (ix2 b j)) (Fin.ext (by simp))

theorem lhsAt_hi (h : 32 < 33) : lhsAt x b ⟨32, h⟩ = wOne := by
  unfold lhsAt
  rw [dif_neg (by simp), dif_neg (by simp)]

theorem coAt_lo (c : Fin 16) (h : c.val < 33) :
    coAt locs scales edges ⟨c.val, h⟩ n = quadCoef (sAt scales edges c n) := by
  unfold coAt
  rw [dif_pos c.isLt]

theorem coAt_mid (c : Fin 16) (h : c.val + 16 < 33) :
    coAt locs scales edges ⟨c.val + 16, h⟩ n = linCoef (locAt locs edges c n) (sAt scales edges c n) := by
  unfold coAt
  rw [dif_neg (by simp), dif_pos (by simp; omega)]
  have e : (⟨c.val + 16 - 16, by omega⟩ : Fin 16) = c := Fin.ext (by simp)
  exact congrArg (fun j => linCoef (locAt locs edges j n) (sAt scales edges j n)) e

theorem coAt_hi (h : 32 < 33) : coAt locs scales edges ⟨32, h⟩ n = biasAt locs scales edges n := by
  unfold coAt
  rw [dif_neg (by simp), dif_neg (by simp)]

end Main

/-! ## Both sides as real sums -/

section Final

variable (x : SX.Idx → EReal) (locs scales : SP.Idx → EReal) (edges : SE.Idx → BitVec 32)
  (b : Fin 1024) (n : Fin 8192) (X L S : Fin 16 → ℝ)

theorem biasAt_coe (hL : ∀ c, locAt locs edges c n = (L c : EReal)) (hS : ∀ c, sAt scales edges c n = (S c : EReal))
    (hSpos : ∀ c, 0 < S c) :
    biasAt locs scales edges n
      = ((∑ c, (((-1 / 2 * L c) * L c) * (1 / (S c * S c)) - Real.log (S c) - 1 / 2 * log2piR) : ℝ) : EReal) := by
  rw [biasAt, wZero_eq, zero_add, ← coe_finset_sum]
  exact Finset.sum_congr rfl fun c _ => by rw [hL, hS, constCoef_coe _ (hSpos c)]

theorem refOut_coe (hX : ∀ c, x (ix2 b c) = (X c : EReal)) (hL : ∀ c, locAt locs edges c n = (L c : EReal))
    (hS : ∀ c, sAt scales edges c n = (S c : EReal)) (hSpos : ∀ c, 0 < S c) :
    refOut x locs scales edges b n
      = ((∑ c, (((-1 / 2 * ((X c - L c) * (1 / S c))) * ((X c - L c) * (1 / S c)) - Real.log (S c))
            - 1 / 2 * log2piR) : ℝ) : EReal) := by
  rw [refOut, wZero_eq, zero_add, ← coe_finset_sum]
  exact Finset.sum_congr rfl fun c _ => by rw [hX, hL, hS, llTerm_coe _ _ (hSpos c)]

/-- Every entry of the left operand is a real number … -/
theorem lhsAt_real (hX : ∀ c, x (ix2 b c) = (X c : EReal)) (k : Fin 33) : ∃ r : ℝ, lhsAt x b k = (r : EReal) := by
  unfold lhsAt
  split_ifs with h1 h2
  · exact ⟨X _ * X _, by rw [hX, ← EReal.coe_mul]⟩
  · exact ⟨X _, hX _⟩
  · exact ⟨1, wOne_eq⟩

/-- … and so is every entry of the right operand: the scales are positive, so no quotient or logarithm leaves the
    reals. -/
theorem coAt_real (hL : ∀ c, locAt locs edges c n = (L c : EReal)) (hS : ∀ c, sAt scales edges c n = (S c : EReal))
    (hSpos : ∀ c, 0 < S c) (k : Fin 33) : ∃ r : ℝ, coAt locs scales edges k n = (r : EReal) := by
  unfold coAt
  split_ifs with h1 h2
  · exact ⟨_, by rw [hS, quadCoef_coe (hSpos _)]⟩
  · exact ⟨_, by rw [hL, hS, linCoef_coe _ (hSpos _)]⟩
  · exact ⟨_, biasAt_coe locs scales edges n L S hL hS hSpos⟩

/-- A real number minus itself is zero, so both remainder products vanish and the leading product is all. -/
theorem kerOut_eq_sum (hX : ∀ c, x (ix2 b c) = (X c : EReal)) (hL : ∀ c, locAt locs edges c n = (L c : EReal))
    (hS : ∀ c, sAt scales edges c n = (S c : EReal)) (hSpos : ∀ c, 0 < S c) :
    kerOut x locs scales edges b n = ∑ k : Fin 33, lhsAt x b k * coAt locs scales edges k n := by
  have h2 : ∀ k, lhsAt x b k * (coAt locs scales edges k n - coAt locs scales edges k n) = 0 := fun k => by
    obtain ⟨r, hr⟩ := coAt_real locs scales edges n L S hL hS hSpos k
    rw [hr, ← EReal.coe_sub, sub_self, EReal.coe_zero, mul_zero]
  have h3 : ∀ k, (lhsAt x b k - lhsAt x b k) * coAt locs scales edges k n = 0 := fun k => by
    obtain ⟨r, hr⟩ := lhsAt_real x b X hX k
    rw [hr, ← EReal.coe_sub, sub_self, EReal.coe_zero, zero_mul]
  unfold kerOut
  simp only [h2, h3, Finset.sum_const_zero, wZero_eq, add_zero, zero_add]

/-- The leading product, split into squares, entries and the one, is the expanded log-density summed over the
    layers. -/
theorem kerOut_eq_refOut_of_real (hX : ∀ c, x (ix2 b c) = (X c : EReal))
    (hL : ∀ c, locAt locs edges c n = (L c : EReal)) (hS : ∀ c, sAt scales edges c n = (S c : EReal))
    (hSpos : ∀ c, 0 < S c) : kerOut x locs scales edges b n = refOut x locs scales edges b n := by
  rw [kerOut_eq_sum x locs scales edges b n X L S hX hL hS hSpos, sum_fin33]
  simp only [lhsAt_lo, lhsAt_mid, lhsAt_hi, coAt_lo, coAt_mid, coAt_hi]
  have e1 : ∑ c : Fin 16, (x (ix2 b c) * x (ix2 b c)) * quadCoef (sAt scales edges c n)
      = ((∑ c, (X c * X c) * (-1 / 2 * (1 / (S c * S c))) : ℝ) : EReal) := by
    rw [← coe_finset_sum]
    exact Finset.sum_congr rfl fun c _ => by
      rw [hX, hS, quadCoef_coe (hSpos c), ← EReal.coe_mul, ← EReal.coe_mul]
  have e2 : ∑ c : Fin 16, x (ix2 b c) * linCoef (locAt locs edges c n) (sAt scales edges c n)
      = ((∑ c, X c * (L c * (1 / (S c * S c))) : ℝ) : EReal) := by
    rw [← coe_finset_sum]
    exact Finset.sum_congr rfl fun c _ => by
      rw [hX, hL, hS, linCoef_coe _ (hSpos c), ← EReal.coe_mul]
  rw [e1, e2, biasAt_coe locs scales edges n L S hL hS hSpos,
    refOut_coe x locs scales edges b n X L S hX hL hS hSpos, wOne_eq, ← EReal.coe_mul, ← EReal.coe_add,
    ← EReal.coe_add, one_mul, ← Finset.sum_add_distrib, ← Finset.sum_add_distrib]
  exact congrArg _ (Finset.sum_congr rfl fun c _ => expand_real (X c) (L c) (hSpos c))

end Final

/-! ## The statement -/

/-- With real entries and positive scales the kernel's three products add up to the reference's sum of
    log-densities. -/
theorem kerOut_eq_refOut (x : SX.Idx → EReal) (locs scales : SP.Idx → EReal) (edges : SE.Idx → BitVec 32)
    (hx : ∀ i, ∃ r : ℝ, x i = (r : EReal)) (hl : ∀ i, ∃ r : ℝ, locs i = (r : EReal))
    (hs : ∀ i, ∃ r : ℝ, scales i = (r : EReal))
    (hpos : ∀ i, (0 : EReal) < scales i + wHalf) (b : Fin 1024) (n : Fin 8192) :
    kerOut x locs scales edges b n = refOut x locs scales edges b n := by
  choose xr hxr using hx
  choose lr hlr using hl
  choose sr hsr using hs
  refine kerOut_eq_refOut_of_real x locs scales edges b n (fun c => xr (ix2 b c))
    (fun c => lr (ix2 c (node edges c n))) (fun c => sr (ix2 c (node edges c n)) + 1 / 2)
    (fun c => hxr _) (fun c => hlr _) (fun c => ?_) (fun c => ?_)
  · rw [sAt, hsr, wHalf_eq, ← EReal.coe_add]
  · have h := hpos (ix2 c (node edges c n))
    rw [hsr, wHalf_eq, ← EReal.coe_add] at h
    exact_mod_cast h

end Cert.Mix
end
-- ==== Proof.RefSide.lean ====
import proofs.«412988_j55697135894671_3_alg».proof.Proof.Gen.ReferenceIdeal.Run
import proofs.«412988_j55697135894671_3_alg».proof.Proof.Gen.ReferenceIdeal.Read
import proofs.«412988_j55697135894671_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.Mix

open Idealize.ShloMosaic Idealize.ShloMosaic.ValueIdx
open Cert.ReferenceIdeal Cert.ReferenceIdeal.Gen Cert.ReferenceIdeal.Read

namespace Ref

/-! ## The gather at an index

The reference gathers, from the [1024, 16, 4096] array of log-densities, the whole batch column at the operand
position (layer, child) that the start-index pair at (c, n) names: both components are read signed and clamped into
the operand. -/

/-- The gather's dimension numbers: the batch axis is the one offset axis, the layer and child axes are collapsed and
    start-indexed, the index vector lies on the start indices' last axis. -/
abbrev gd := gather_S1024x16x4096_S16x8192x2_S1024x16x8192_0_12_n_n_12_2_102411

/-- Result index (b, c, n) reads component `k` of its start index at (c, n, k). -/
theorem gd_siIdx (j : S1024x16x8192.Idx) (k : Fin 2) :
    gd.siIdx j k = ix3 (j 1) (j 2) k := by
  funext b
  refine Fin.ext ?_
  match b with
  | ⟨0, _⟩ => rfl
  | ⟨1, _⟩ => rfl
  | ⟨2, _⟩ => rfl

/-- The batch axis is not start-indexed: its slice starts at 0. -/
theorem gd_start0 (j : S1024x16x8192.Idx) (I : IVec S16x8192x2 32) : gd.start j I 0 = 0 := by
  unfold GatherDims.start
  rw [dif_neg (by decide)]

/-- The layer axis starts at the first component, clamped into [0, 15]. -/
theorem gd_start1 (j : S1024x16x8192.Idx) (I : IVec S16x8192x2 32) :
    gd.start j I 1 = min (I (ix3 (j 1) (j 2) (0 : Fin 2))).toInt.toNat 15 := by
  unfold GatherDims.start
  rw [dif_pos (by decide)]
  exact congrArg (fun i => min (I i).toInt.toNat 15) (gd_siIdx j 0)

/-- The child axis starts at the second component, clamped into [0, 4095]. -/
theorem gd_start2 (j : S1024x16x8192.Idx) (I : IVec S16x8192x2 32) :
    gd.start j I 2 = min (I (ix3 (j 1) (j 2) (1 : Fin 2))).toInt.toNat 4095 := by
  unfold GatherDims.start
  rw [dif_pos (by decide)]
  exact congrArg (fun i => min (I i).toInt.toNat 4095) (gd_siIdx j 1)

/-- The batch axis is the one kept axis: its offset is the result's first coordinate. -/
theorem gd_off0 (j : S1024x16x8192.Idx) : gd.offCoord j 0 = (j 0).val := by
  unfold GatherDims.offCoord
  rw [dif_pos (by decide)]
  rfl

/-- THE GATHER READ AT (b, c, n): the operand at (b, clamp I[c, n, 0], clamp I[c, n, 1]). -/
theorem gather_apply {α : Type} (T : S1024x16x4096.Idx → α) (I : IVec S16x8192x2 32)
    (b : Fin 1024) (c : Fin 16) (n : Fin 8192) :
    Host.gather gd T I (ix3 b c n)
      = T (ix3 b ⟨min (I (ix3 c n (0 : Fin 2))).toInt.toNat 15, by omega⟩
                 ⟨min (I (ix3 c n (1 : Fin 2))).toInt.toNat 4095, by omega⟩) := by
  unfold Host.gather
  congr 1
  funext a
  refine Fin.ext ?_
  match a with
  | ⟨0, _⟩ =>
    show gd.start (ix3 b c n) I 0 + gd.batchCoord (ix3 b c n) 0 + gd.offCoord (ix3 b c n) 0 = b.val
    rw [gd_start0, GatherDims.batchCoord_eq_zero _ _ _ List.not_mem_nil, gd_off0]
    simp
  | ⟨1, _⟩ =>
    show gd.start (ix3 b c n) I 1 + gd.batchCoord (ix3 b c n) 1 + gd.offCoord (ix3 b c n) 1 = _
    rw [gd_start1, GatherDims.batchCoord_eq_zero _ _ _ List.not_mem_nil,
      GatherDims.offCoord_eq_zero _ _ _ (by decide)]
    rfl
  | ⟨2, _⟩ =>
    show gd.start (ix3 b c n) I 2 + gd.batchCoord (ix3 b c n) 2 + gd.offCoord (ix3 b c n) 2 = _
    rw [gd_start2, GatherDims.batchCoord_eq_zero _ _ _ List.not_mem_nil,
      GatherDims.offCoord_eq_zero _ _ _ (by decide)]
    rfl

/-- Two rank-3 indices with equal coordinates are equal. -/
theorem ix3_congr {n0 n1 n2 : Nat} (a : Fin n0) {b b' : Fin n1} {c c' : Fin n2} (hb : b = b') (hc : c = c') :
    ix3 a b c = ix3 a b' c' := by subst hb; subst hc; rfl

/-! ## Words -/

/-- A word below 2³¹ is not negative: the signed comparison with zero says no. -/
theorem slt_zero_of_small (e : BitVec 32) (h : e.toNat < 2 ^ 31) : IntOp.cmpi .slt e 0#32 = 0#1 :=
  eq_zero_of_ne_one fun h1 =>
    absurd ((StableHlo.Predicate.slt_iff_toNat h (by decide)).1 h1) (by simp)

/-- A word below 2³¹ read signed is its value. -/
theorem toInt_toNat_of_small (e : BitVec 32) (h : e.toNat < 2 ^ 31) : e.toInt.toNat = e.toNat := by
  rw [StableHlo.Predicate.toInt_eq_toNat_of_lt h, Int.toNat_natCast]

/-! ## The start indices -/

/-- The first start-index component is the layer column. -/
theorem v35_left (edges : S16x8192.Idx → BitVec 32) (k : Fin 16) (n : Fin 8192) :
    val_main_v35 (F := Ideal) edges (ix3 k n (0 : Fin 2)) = val_main_v33 (F := Ideal) (ix3 k n (0 : Fin 1)) := by
  unfold val_main_v35
  exact concatenate_pair_apply_left (t := S16x8192x2) (s₁ := S16x8192x1) (s₂ := S16x8192x1) 2
    (val_main_v33 (F := Ideal)) (val_main_v34 (F := Ideal) edges) _ (ix3 k n (0 : Fin 2)) rfl
    (ix3 k n (0 : Fin 1)) (fun b => by
    match b with
    | ⟨0, _⟩ => rfl
    | ⟨1, _⟩ => rfl
    | ⟨2, _⟩ => rfl)

/-- The second start-index component is the edge column. -/
theorem v35_right (edges : S16x8192.Idx → BitVec 32) (k : Fin 16) (n : Fin 8192) :
    val_main_v35 (F := Ideal) edges (ix3 k n (1 : Fin 2)) = val_main_v34 (F := Ideal) edges (ix3 k n (0 : Fin 1)) := by
  unfold val_main_v35
  exact concatenate_pair_apply_right (t := S16x8192x2) (s₁ := S16x8192x1) (s₂ := S16x8192x1) 2
    (val_main_v33 (F := Ideal)) (val_main_v34 (F := Ideal) edges) _ (ix3 k n (1 : Fin 2)) rfl rfl
    (ix3 k n (0 : Fin 1)) (fun b hb => by
    match b, hb with
    | ⟨0, _⟩, _ => rfl
    | ⟨1, _⟩, _ => rfl
    | ⟨2, _⟩, hb => exact absurd rfl hb) rfl

/-- The layer column at (k, n) is the word of `k`: the layer counter, never negative, is left as it is. -/
theorem v33_at (k : Fin 16) (n : Fin 8192) :
    val_main_v33 (F := Ideal) (ix3 k n (0 : Fin 1)) = BitVec.ofNat 32 k.val := by
  rw [val_main_v33_apply, val_main_v32_apply, val_main_v26_apply, val_main_v23_apply]
  have h21 : val_main_v21 (F := Ideal) (idx_main_v32 (idx_main_v33 (ix3 k n (0 : Fin 1)))) = BitVec.ofNat 32 k.val :=
    (val_main_v21_apply _).trans rfl
  have h22 : val_main_v22 (F := Ideal) (idx_main_v32 (idx_main_v33 (ix3 k n (0 : Fin 1)))) = 0#32 :=
    (val_main_v22_apply _).trans rfl
  have hk : (BitVec.ofNat 32 k.val).toNat < 2 ^ 31 := by
    have := k.isLt
    rw [BitVec.toNat_ofNat]; omega
  rw [h21, h22, slt_zero_of_small _ hk, select_zero]

/-- The edge column at (k, n) is the edge word: an edge in range is not negative, so it is left as it is. -/
theorem v34_at (edges : S16x8192.Idx → BitVec 32) (hrange : ∀ i, (edges i).toNat < 4096) (k : Fin 16) (n : Fin 8192) :
    val_main_v34 (F := Ideal) edges (ix3 k n (0 : Fin 1)) = edges (ix2 k n) := by
  have hi : idx_main_v34 (ix3 k n (0 : Fin 1)) = ix2 k n := by
    funext a
    match a with
    | ⟨0, _⟩ => rfl
    | ⟨1, _⟩ => rfl
  rw [val_main_v34_apply, hi, val_main_v31_apply, val_main_v28_apply]
  have h27 : val_main_v27 (F := Ideal) (ix2 k n) = 0#32 := (val_main_v27_apply _).trans rfl
  have he : (edges (ix2 k n)).toNat < 2 ^ 31 := by have := hrange (ix2 k n); omega
  rw [h27, slt_zero_of_small _ he, select_zero]

/-! ## The log-density tensor at an index -/

/-- The [1024, 16, 4096] tensor at (b, k, m) is the log-density of `x[b, k]` under child `m` of layer `k`. -/
theorem v19_at (x : S1024x16.Idx → EReal) (locs scales : S16x4096.Idx → EReal)
    (b : Fin 1024) (k : Fin 16) (m : Fin 4096) :
    val_main_v19 (F := Ideal) x locs scales (ix3 b k m)
      = llTerm (x (ix2 b k)) (locs (ix2 k m)) (scales (ix2 k m) + wHalf) := by
  have i4 : idx_main_v2 (idx_main_v4 (ix3 b k m)) = ix2 b k := by
    funext a
    match a with
    | ⟨0, _⟩ => rfl
    | ⟨1, _⟩ => rfl
  have i5 : idx_main_v3 (idx_main_v5 (ix3 b k m)) = ix2 k m := by
    funext a
    match a with
    | ⟨0, _⟩ => rfl
    | ⟨1, _⟩ => rfl
  have i8 : idx_main_v7 (idx_main_v8 (ix3 b k m)) = ix2 k m := by
    funext a
    match a with
    | ⟨0, _⟩ => rfl
    | ⟨1, _⟩ => rfl
  have i15 : idx_main_v14 (idx_main_v15 (ix3 b k m)) = ix2 k m := by
    funext a
    match a with
    | ⟨0, _⟩ => rfl
    | ⟨1, _⟩ => rfl
  have h1 : ∀ i, val_main_v1 (F := Ideal) scales i = scales i + wHalf := fun i => by
    rw [val_main_v1_apply, val_main_v0_apply, val_main_cst_0_apply]; rfl
  have h9 : val_main_v9 (F := Ideal) x locs scales (ix3 b k m)
      = Ideal.div (x (ix2 b k) - locs (ix2 k m)) (scales (ix2 k m) + wHalf) := by
    rw [val_main_v9_apply, val_main_v6_apply, val_main_v4_apply, val_main_v2_apply, i4,
      val_main_v5_apply, val_main_v3_apply, i5, val_main_v8_apply, val_main_v7_apply, i8, h1]
    rfl
  have h15 : val_main_v15 (F := Ideal) scales (ix3 b k m) = Ideal.log (scales (ix2 k m) + wHalf) := by
    rw [val_main_v15_apply, val_main_v14_apply, i15, val_main_v13_apply, h1]
    rfl
  have h10 : val_main_v10 (F := Ideal) (ix3 b k m) = wNegHalf := by
    rw [val_main_v10_apply, val_main_cst_1_apply]; rfl
  have h18 : val_main_v18 (F := Ideal) (ix3 b k m) = wHalf * wLog2pi := by
    rw [val_main_v18_apply, val_main_v17_apply, val_main_cst_2_apply, val_main_cst_apply]; rfl
  rw [val_main_v19_apply, val_main_v16_apply, val_main_v12_apply, val_main_v11_apply, h9, h10, h15, h18]
  rfl

/-! ## The reference at an index -/

/-- The gathered tensor at (b, k, n) is the log-density of `x[b, k]` under the child the edge table names. -/
theorem v36_at (x : S1024x16.Idx → EReal) (locs scales : S16x4096.Idx → EReal)
    (edges : S16x8192.Idx → BitVec 32) (hrange : ∀ i, (edges i).toNat < 4096)
    (b : Fin 1024) (k : Fin 16) (n : Fin 8192) :
    val_main_v36 (F := Ideal) x locs scales edges (ix3 b k n)
      = llTerm (x (ix2 b k)) (locAt locs edges k n) (sAt scales edges k n) := by
  have hr := hrange (ix2 k n)
  have hkl := k.isLt
  have hk : (BitVec.ofNat 32 k.val).toNat = k.val := by
    rw [BitVec.toNat_ofNat]; omega
  have e0 : min (val_main_v35 (F := Ideal) edges (ix3 k n (0 : Fin 2))).toInt.toNat 15 = k.val := by
    rw [v35_left, v33_at, toInt_toNat_of_small _ (by omega), hk]; omega
  have e1 : min (val_main_v35 (F := Ideal) edges (ix3 k n (1 : Fin 2))).toInt.toNat 4095
      = (node edges k n).val := by
    rw [v35_right, v34_at edges hrange, toInt_toNat_of_small _ (by omega)]
    show _ = (edges (ix2 k n)).toNat % 4096
    rw [Nat.mod_eq_of_lt hr]; omega
  unfold val_main_v36
  rw [gather_apply, ix3_congr b (Fin.ext e0) (Fin.ext e1), v19_at]
  rfl

end Ref

/-- THE REFERENCE AT (b, n): the children's log-densities summed over the sixteen layers, from zero. -/
theorem ref_apply (x : S1024x16.Idx → EReal) (locs scales : S16x4096.Idx → EReal)
    (edges : S16x8192.Idx → BitVec 32) (hrange : ∀ i, (edges i).toNat < 4096) (b : Fin 1024) (n : Fin 8192) :
    val_main_v37 (F := Ideal) x locs scales edges (ix2 b n) = refOut x locs scales edges b n := by
  rw [val_main_v37_apply]
  unfold refOut
  refine congrArg₂ (· + ·) rfl (Finset.sum_congr rfl fun k _ => ?_)
  have hi : idx_main_v37 (ix2 b n) k = ix3 b k n := by
    funext a
    match a with
    | ⟨0, _⟩ => rfl
    | ⟨1, _⟩ => rfl
    | ⟨2, _⟩ => rfl
  rw [hi]
  exact Ref.v36_at x locs scales edges hrange b k n

end Cert.Mix

end
-- ==== Proof.PreFacts.lean ====
/-
  The precondition read back.  It is the conjunction of six statements "every entry satisfies …":
  |x| < +inf, |locs| < +inf, |scales| < +inf, scales + 1/2 > 0, edges ≥ 0 and edges < 4096 (the last two read signed).
  An extended real whose absolute value max v (-v) is below +inf is neither infinity, so it is a real number;
  a word that is nonnegative and below 4096 read signed is below 4096 read unsigned.
-/
import proofs.«412988_j55697135894671_3_alg».proof.Proof.Spec
import proofs.«412988_j55697135894671_3_alg».proof.Proof.Gen.Pre_finite_inputs
import Idealize.ShloMosaic.Lib.ReduceAll
import Idealize.ShloMosaic.PureOps.Ideal.Laws

noncomputable section

namespace Cert.Mix

open Idealize.ShloMosaic Idealize.ShloMosaic.ValueIdx

namespace PreFacts

/-- The word 0x7F800000 denotes +inf. -/
theorem ofBits_inf : Ideal.ofBits .f32 0x7F800000#32 = (⊤ : EReal) := by
  simp [Ideal.ofBits, Ideal.ieee]

/-- |v| < +inf says v is a real number: max v (-v) is +inf at either infinity. -/
theorem real_of_abs_lt_inf (v : EReal)
    (h : Ideal.cmp .olt (max v (-v)) (Ideal.ofBits .f32 0x7F800000#32) = 1#1) : ∃ r : ℝ, v = (r : EReal) := by
  rw [ofBits_inf] at h
  have hlt : max v (-v) < ⊤ := by
    by_contra hn
    simp [Ideal.cmp, hn] at h
  induction v using EReal.rec with
  | bot => simp at hlt
  | coe r => exact ⟨r, rfl⟩
  | top => simp at hlt

/-- The bit of "v + 1/2 > 0" being set says 0 < v + 1/2 (the zero word denotes 0). -/
theorem pos_of_cmp_ogt (v : EReal)
    (h : Ideal.cmp .ogt (v + Ideal.ofBits .f32 0x3F000000#32) (Ideal.ofBits .f32 0x00000000#32) = 1#1) :
    (0 : EReal) < v + wHalf := by
  rw [Ideal.ofBits_zero_f32] at h
  by_contra hn
  have hn' : ¬ (0 : EReal) < v + Ideal.ofBits .f32 0x3F000000#32 := hn
  simp [Ideal.cmp, hn'] at h

/-- 0 ≤ e and e < 4096 read signed say e < 4096 read unsigned. -/
theorem toNat_lt_of_cmpi (e : BitVec 32) (h0 : IntOp.cmpi .sge e 0#32 = 1#1) (h1 : IntOp.cmpi .slt e 4096#32 = 1#1) :
    e.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have := BitVec.toInt_eq_toNat_cond e
  split at this <;> omega

end PreFacts

/-- The precondition, decoded: the three float inputs are real everywhere, every scale plus one half is positive,
    and every edge word is a column of the parameter tables. -/
theorem pre_facts [Cert.Pre_finite_inputs.Facts] (x : SX.Idx → EReal) (locs scales : SP.Idx → EReal) (edges : SE.Idx → BitVec 32)
    (h : Cert.Pre_finite_inputs.fn (F := Ideal) x locs scales edges = fun _ => 1#1) :
    (∀ i, ∃ r : ℝ, x i = (r : EReal)) ∧ (∀ i, ∃ r : ℝ, locs i = (r : EReal)) ∧ (∀ i, ∃ r : ℝ, scales i = (r : EReal))
      ∧ (∀ i, (0 : EReal) < scales i + wHalf) ∧ (∀ i, (edges i).toNat < 4096) := by
  -- the rank-0 result has one index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- a conjunction of bits is set exactly when each is
  simp only [andi, IntOp.andi_eq_one] at h0
  obtain ⟨⟨⟨⟨⟨h1, h2⟩, h3⟩, h4⟩, h5⟩, h6⟩ := h0
  -- each "all entries" is set only if every entry's bit is
  refine ⟨fun i => ?_, fun i => ?_, fun i => ?_, fun i => ?_, fun i => ?_⟩
  · exact PreFacts.real_of_abs_lt_inf (x i) (Host.reduce_andi_all _ _ _ _ _ h1 i)
  · exact PreFacts.real_of_abs_lt_inf (locs i) (Host.reduce_andi_all _ _ _ _ _ h2 i)
  · exact PreFacts.real_of_abs_lt_inf (scales i) (Host.reduce_andi_all _ _ _ _ _ h3 i)
  · exact PreFacts.pos_of_cmp_ogt (scales i) (Host.reduce_andi_all _ _ _ _ _ h4 i)
  · exact PreFacts.toNat_lt_of_cmpi (edges i) (Host.reduce_andi_all _ _ _ _ _ h5 i) (Host.reduce_andi_all _ _ _ _ _ h6 i)

end Cert.Mix

end
-- ==== Proof.Bridge.lean ====
/-
  The two runs meet.  The idealized kernel's result array is `Gout` of the four operand arrays the region finds
  (the leading parts and the remainders of the rows [x² | x | 1] and of the coefficient columns); read at (b, n) through
  what the host operations make those arrays, it is `kerOut`, the three cross products of row b and column n.  The
  reference's result read at (b, n) is `refOut`, the children's log-densities summed over the layers.  Under the
  precondition — finite inputs, positive scales + 1/2, edges in range — every remainder is zero and the expanded
  quadratic is the square, so the two are one number.
-/
import proofs.«412988_j55697135894671_3_alg».proof.Proof.KernelValue
import proofs.«412988_j55697135894671_3_alg».proof.Proof.HostTerms
import proofs.«412988_j55697135894671_3_alg».proof.Proof.HostReadA
import proofs.«412988_j55697135894671_3_alg».proof.Proof.HostReadB
import proofs.«412988_j55697135894671_3_alg».proof.Proof.Algebra
import proofs.«412988_j55697135894671_3_alg».proof.Proof.RefSide
import proofs.«412988_j55697135894671_3_alg».proof.Proof.PreFacts

noncomputable section

namespace Cert.Mix

open Cert.KernelIdeal Cert.KernelIdeal.Gen Cert.KernelIdeal.Run Cert.KernelIdeal.Val Cert.KernelIdeal.Host
open Idealize.ShloMosaic Idealize.ShloMosaic.TcCoe Idealize.SL.Sem Idealize.ShloMosaic.ValueIdx

variable (m : (ℓ : Loc nD τ sig) → Buf (Elt Ideal) ℓ)

/-- The kernel's three sums are the cross sum of the row's and the column's leading parts and remainders. -/
theorem kerOut_eq_cross (x : SX.Idx → EReal) (locs scales : SP.Idx → EReal) (edges : SE.Idx → BitVec 32) (b : Fin 1024) (n : Fin 8192) :
    kerOut x locs scales edges b n
      = cross (fun k => lhsAt x b k) (fun k => lhsAt x b k - lhsAt x b k)
          (fun k => coAt locs scales edges k n) (fun k => coAt locs scales edges k n - coAt locs scales edges k n) := rfl

/-- The kernel's result at (b, n), from the argument arrays, when the edges are in range. -/
theorem ker_apply (c : Dev nD) (hrange : ∀ i, (m ((c : Thread nD τ).loc main_arg3) i).toNat < 4096) (b : Fin 1024) (n : Fin 8192) :
    Gout (V m c main_v24) (V m c main_v27) (V m c main_v28) (V m c main_v31) (ix2 b n)
      = kerOut (m ((c : Thread nD τ).loc main_arg0)) (m ((c : Thread nD τ).loc main_arg1)) (m ((c : Thread nD τ).loc main_arg2))
          (m ((c : Thread nD τ).loc main_arg3)) b n := by
  rw [V_main_v24, V_main_v27, V_main_v28, V_main_v31, kerOut_eq_cross]
  unfold Gout
  have hl : ∀ (c' : Fin 16) (n' : Fin 8192),
      takeAlong (F := Ideal) (m ((c : Thread nD τ).loc main_arg1)) (m ((c : Thread nD τ).loc main_arg3)) (ix2 c' n')
        = m ((c : Thread nD τ).loc main_arg1) (ix2 c' (node (m ((c : Thread nD τ).loc main_arg3)) c' n')) :=
    fun c' n' => takeAlong_apply _ _ hrange c' n'
  have hs : ∀ (c' : Fin 16) (n' : Fin 8192),
      takeAlong (F := Ideal) (m ((c : Thread nD τ).loc main_arg2)) (m ((c : Thread nD τ).loc main_arg3)) (ix2 c' n')
        = m ((c : Thread nD τ).loc main_arg2) (ix2 c' (node (m ((c : Thread nD τ).loc main_arg3)) c' n')) :=
    fun c' n' => takeAlong_apply _ _ hrange c' n'
  refine cross_congr (fun k => ?_) (fun k => ?_) (fun k => ?_) (fun k => ?_)
  · exact lhs_hi_apply _ b k
  · exact lhs_lo_apply _ b k
  · exact coeffs_hi_of _ _ _ _ _ hl hs k n
  · exact coeffs_lo_of _ _ _ _ _ hl hs k n

end Cert.Mix

end
-- ==== Proof.lean ====
/-
  The certificate: a mixture layer's log-likelihood — for each batch row and each product node, the sum over sixteen
  child layers of the Gaussian log-density of the row's entry under the child the node's edge names — computed by a
  kernel as ONE matrix product of [x² | x | 1] rows against coefficient columns (each operand split into a leading part
  and a remainder, three of the four cross products kept), against the reference's direct evaluation.

  The three programs run to their ends and leave their arguments unchanged (the kernels' runs through the pipelined
  region; the reference's run of host operations).  The idealization rewrote nothing.  Over the extended reals, under
  the precondition (finite inputs; scales + 1/2 positive, so that the reference's logarithm and quotient are defined;
  edges in range of the tables they index), the remainders vanish, the expanded quadratic is the square, and the two
  results agree entry by entry.
-/
import proofs.«412988_j55697135894671_3_alg».proof.Defs
import proofs.«412988_j55697135894671_3_alg».proof.Proof.Gen.Kernel
import proofs.«412988_j55697135894671_3_alg».proof.Proof.Gen.KernelIdeal
import proofs.«412988_j55697135894671_3_alg».proof.Proof.Gen.ReferenceIdeal
import proofs.«412988_j55697135894671_3_alg».proof.Proof.Gen.Pre_finite_inputs
import proofs.«412988_j55697135894671_3_alg».proof.Proof.Gen.ReferenceIdeal.Run
import proofs.«412988_j55697135894671_3_alg».proof.Proof.Gen.ReferenceIdeal.Read
import proofs.«412988_j55697135894671_3_alg».proof.Proof.RunKernel
import proofs.«412988_j55697135894671_3_alg».proof.Proof.RunKernelIdeal
import proofs.«412988_j55697135894671_3_alg».proof.Proof.KernelValue
import proofs.«412988_j55697135894671_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to its end and its four arguments end unchanged. -/
theorem frame_k : Cert.frame_Kernel := fun m ρ _ => Cert.Kernel.Run.frame m ρ
/-- So does its idealization. -/
theorem frame_ki : Cert.frame_KernelIdeal := fun m ρ _ => Cert.KernelIdeal.Run.frame m ρ
/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the two programs, from memories agreeing on the arguments, end with equal results. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hl, hs, hpos, hrange⟩ := Cert.Mix.pre_facts _ _ _ _ (hpre c)
  rw [Cert.ReferenceIdeal.Read.val_main_v37_eq, (hagree c).1, (hagree c).2.1, (hagree c).2.2.1, (hagree c).2.2.2]
  funext i
  obtain ⟨b, n, rfl⟩ : ∃ (b : Fin 1024) (n : Fin 8192), i = ix2 b n := ⟨i 0, i 1, eq_ix2 i⟩
  rw [Cert.Mix.ref_apply _ _ _ _ hrange b n, Cert.Mix.ker_apply m c hrange b n]
  exact (Cert.Mix.kerOut_eq_refOut _ _ _ _ hx hl hs hpos b n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
